-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S1024x256 : Shape := ⟨2, ![1024, 256]⟩
abbrev S1024 : Shape := ⟨1, ![1024]⟩
abbrev S131072 : Shape := ⟨1, ![131072]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S131072x256 .f32) (main_arg1 : FVec F S1024x256 .f32) (main_arg2 : FVec F S1024 .f32) (main_arg3 : IVec S131072 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S131072x256 : Shape := ⟨2, ![131072, 256]⟩
abbrev S1024x256 : Shape := ⟨2, ![1024, 256]⟩
abbrev S1024 : Shape := ⟨1, ![1024]⟩
abbrev S131072 : Shape := ⟨1, ![131072]⟩
abbrev S_ : Shape := ⟨0, ![]⟩
abbrev S1x131072 : Shape := ⟨2, ![1, 131072]⟩
abbrev S2x1024x256 : Shape := ⟨3, ![2, 1024, 256]⟩
abbrev S2x1024x1 : Shape := ⟨3, ![2, 1024, 1]⟩
abbrev S1x2048 : Shape := ⟨2, ![1, 2048]⟩
abbrev S2048x256 : Shape := ⟨2, ![2048, 256]⟩
abbrev S1x1024x256 : Shape := ⟨3, ![1, 1024, 256]⟩
abbrev S1x1024x1 : Shape := ⟨3, ![1, 1024, 1]⟩
abbrev S1024x1 : Shape := ⟨2, ![1024, 1]⟩
abbrev S1024x2048 : Shape := ⟨2, ![1024, 2048]⟩
abbrev S2048x1 : Shape := ⟨2, ![2048, 1]⟩
abbrev S131072x1 : Shape := ⟨2, ![131072, 1]⟩

abbrev nBuf : Space → Nat
  | .hbm => 60
  | .vmem => 10
  | .smem => 0
  | _ => 0

abbrev bufTy : (tb : Table) → Fin (tcTables nBuf tb) → BufTy
  | .hbm, ⟨0, _⟩ => ⟨S131072x256, .f32⟩
  | .hbm, ⟨1, _⟩ => ⟨S1024x256, .f32⟩
  | .hbm, ⟨2, _⟩ => ⟨S1024, .f32⟩
  | .hbm, ⟨3, _⟩ => ⟨S131072, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S1x131072, .i32⟩
  | .hbm, ⟨13, _⟩ => ⟨S2x1024x256, .f32⟩
  | .hbm, ⟨14, _⟩ => ⟨S2x1024x1, .f32⟩
  | .hbm, ⟨15, _⟩ => ⟨S1x1024x256, .f32⟩
  | .hbm, ⟨16, _⟩ => ⟨S1024x256, .f32⟩
  | .hbm, ⟨17, _⟩ => ⟨S1x1024x256, .f32⟩
  | .hbm, ⟨18, _⟩ => ⟨S1024x256, .f32⟩
  | .hbm, ⟨19, _⟩ => ⟨S1024x256, .f32⟩
  | .hbm, ⟨20, _⟩ => ⟨S1x1024x1, .f32⟩
  | .hbm, ⟨21, _⟩ => ⟨S1024, .f32⟩
  | .hbm, ⟨22, _⟩ => ⟨S1x1024x1, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024x1, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024, .f32⟩
  | .hbm, ⟨40, _⟩ => ⟨S1024, .i1⟩
  | .hbm, ⟨41, _⟩ => ⟨S1024x1, .i1⟩
  | .hbm, ⟨42, _⟩ => ⟨S1024x256, .i1⟩
  | .hbm, ⟨43, _⟩ => ⟨S1024x256, .f32⟩
  | .hbm, ⟨44, _⟩ => ⟨S_, .f32⟩
  | .hbm, ⟨45, _⟩ => ⟨S1024, .f32⟩
  | .hbm, ⟨46, _⟩ => ⟨S1024, .i1⟩
  | .hbm, ⟨47, _⟩ => ⟨S1024x1, .i1⟩
  | .hbm, ⟨48, _⟩ => ⟨S1024x256, .i1⟩
  | .hbm, ⟨49, _⟩ => ⟨S1024x256, .f32⟩
  | .hbm, ⟨50, _⟩ => ⟨S1024, .f32⟩
  | .hbm, ⟨51, _⟩ => ⟨S_, .i32⟩
  | .hbm, ⟨52, _⟩ => ⟨S131072, .i32⟩
  | .hbm, ⟨53, _⟩ => ⟨S131072, .i1⟩
  | .hbm, ⟨54, _⟩ => ⟨S_, .i32⟩
  | .hbm, ⟨55, _⟩ => ⟨S131072, .i32⟩
  | .hbm, ⟨56, _⟩ => ⟨S131072, .i32⟩
  | .hbm, ⟨57, _⟩ => ⟨S131072, .i32⟩
  | .hbm, ⟨58, _⟩ => ⟨S131072x1, .i32⟩
  | .hbm, ⟨59, _⟩ => ⟨S131072x256, .f32⟩
  | .local _ .vmem, ⟨0, _⟩ => ⟨S1x2048, .i32⟩
  | .local _ .vmem, ⟨1, _⟩ => ⟨S1x2048, .i32⟩
  | .local _ .vmem, ⟨2, _⟩ => ⟨S2048x256, .f32⟩
  | .local _ .vmem, ⟨3, _⟩ => ⟨S2048x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x1, .f32⟩
  | .local _ .vmem, ⟨7, _⟩ => ⟨S1x1024x1, .f32⟩
  | .local _ .vmem, ⟨8, _⟩ => ⟨S1024x256, .f32⟩
  | .local _ .vmem, ⟨9, _⟩ => ⟨S1024x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_v0 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call2_v0 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v26 : BitVec 1 := Scalar.cmpi .eq arg1 c31_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S131072 : S_.BroadcastsInDim S131072 (![] : Fin 0 → Fin S131072.rank)
  shapeCasts_S131072_S1x131072 : S131072.ShapeCasts S1x131072
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S1024x2048_d0_w32 : S1024x2048.Iotas .tc 32 [0]
  broadcasts_S1x2048_S1024x2048 : S1x2048.Broadcasts S1024x2048
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S1024x256_S1x1024x256 : S1024x256.ShapeCasts S1x1024x256
  inb_S1x1024x256_S1x1024x256_0_0_0 : ∀ a, (![0, 0, 0] : Fin 3 → Nat) a + S1x1024x256.size a ≤ S1x1024x256.size a
  h_S1x1024x256 : 0 < S1x1024x256.numel
  shapeCasts_S1024x1_S1x1024x1 : S1024x1.ShapeCasts S1x1024x1
  inb_S1x1024x1_S1x1024x1_0_0_0 : ∀ a, (![0, 0, 0] : Fin 3 → Nat) a + S1x1024x1.size a ≤ S1x1024x1.size a
  h_S1x1024x1 : 0 < S1x1024x1.numel
  slices_S2x1024x256_S1x1024x256_0_0_0 : S2x1024x256.Slices ![0, 0, 0] S1x1024x256
  shapeCasts_S1x1024x256_S1024x256 : S1x1024x256.ShapeCasts S1024x256
  slices_S2x1024x256_S1x1024x256_1_0_0 : S2x1024x256.Slices ![1, 0, 0] S1x1024x256
  slices_S2x1024x1_S1x1024x1_0_0_0 : S2x1024x1.Slices ![0, 0, 0] S1x1024x1
  shapeCasts_S1x1024x1_S1024 : S1x1024x1.ShapeCasts S1024
  slices_S2x1024x1_S1x1024x1_1_0_0 : S2x1024x1.Slices ![1, 0, 0] S1x1024x1
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S_S1024x256 : S_.BroadcastsInDim S1024x256 (![] : Fin 0 → Fin S1024x256.rank)
  bcast_S131072_S131072x1_0 : S131072.BroadcastsInDim S131072x1 (![0] : Fin 1 → Fin S131072x1.rank)
  dot_S1024x2048_S2048x256_S1024x256_1_0_0_1_n_n_wf : DotDims.WF S1024x2048 S2048x256 S1024x256 [1] [0] [0] [1] [] []
  dot_S1024x2048_S2048x1_S1024x1_1_0_0_1_n_n_wf : DotDims.WF S1024x2048 S2048x1 S1024x1 [1] [0] [0] [1] [] []
  gather_S1024x256_S131072x1_S131072x256_1_0_n_n_0_1_1256_wf : GatherDims.WF S1024x256 S131072x1 S131072x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x131072.size a
  hwx0_0 : ∀ i : grid0.Coords, EltTy.bits .i32 = 32 ∨ (Rect.block (s := S1x131072) S1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf
def gather_S1024x256_S131072x1_S131072x256_1_0_n_n_0_1_1256 : GatherDims S1024x256 S131072x1 S131072x256 where
  offsetDims := [1]
  collapsedSliceDims := [0]
  operandBatchingDims := []
  startIndicesBatchingDims := []
  startIndexMap := [0]
  indexVectorDim := 1
  sliceSizes := ![1, 256]
  wf := gather_S1024x256_S131072x1_S131072x256_1_0_n_n_0_1_1256_wf

abbrev win0_0 : Pipeline.Window sig grid0 :=
  Pipeline.Window.ofSpec (Memref.whole main_v1) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S131072x256 : Shape := ⟨2, ![131072, 256]⟩
abbrev S1024x256 : Shape := ⟨2, ![1024, 256]⟩
abbrev S1024 : Shape := ⟨1, ![1024]⟩
abbrev S131072 : Shape := ⟨1, ![131072]⟩
abbrev S_ : Shape := ⟨0, ![]⟩
abbrev S131072x1 : Shape := ⟨2, ![131072, 1]⟩
abbrev S1024x1 : Shape := ⟨2, ![1024, 1]⟩

abbrev nBuf : Space → Nat
  | .hbm => 57
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S1024x256, .f32⟩
  | .hbm, ⟨2, _⟩ => ⟨S1024, .f32⟩
  | .hbm, ⟨3, _⟩ => ⟨S131072, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S131072x256, .f32⟩
  | .hbm, ⟨21, _⟩ => ⟨S_, .f32⟩
  | .hbm, ⟨22, _⟩ => ⟨S1024x256, .f32⟩
  | .hbm, ⟨23, _⟩ => ⟨S131072x1, .i32⟩
  | .hbm, ⟨24, _⟩ => ⟨S1024x256, .f32⟩
  | .hbm, ⟨25, _⟩ => ⟨S_, .f32⟩
  | .hbm, ⟨26, _⟩ => ⟨S131072, .f32⟩
  | .hbm, ⟨27, _⟩ => ⟨S_, .f32⟩
  | .hbm, ⟨28, _⟩ => ⟨S1024, .f32⟩
  | .hbm, ⟨29, _⟩ => ⟨S131072x1, .i32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1024x1, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | .hbm, ⟨40, _⟩ => ⟨S_, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S_, .f32⟩
  | .hbm, ⟨45, _⟩ => ⟨S1024, .f32⟩
  | .hbm, ⟨46, _⟩ => ⟨S1024, .i1⟩
  | .hbm, ⟨47, _⟩ => ⟨S1024x1, .i1⟩
  | .hbm, ⟨48, _⟩ => ⟨S1024x256, .i1⟩
  | .hbm, ⟨49, _⟩ => ⟨S1024x256, .f32⟩
  | .hbm, ⟨50, _⟩ => ⟨S_, .f32⟩
  | .hbm, ⟨51, _⟩ => ⟨S1024, .f32⟩
  | .hbm, ⟨52, _⟩ => ⟨S1024, .i1⟩
  | .hbm, ⟨53, _⟩ => ⟨S1024x1, .i1⟩
  | .hbm, ⟨54, _⟩ => ⟨S1024x256, .i1⟩
  | .hbm, ⟨55, _⟩ => ⟨S1024x256, .f32⟩
  | .hbm, ⟨56, _⟩ => ⟨S1024, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_c_2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_v0 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  gather_S1024x256_S131072x1_S131072x256_1_0_n_n_0_1_1256_wf : GatherDims.WF S1024x256 S131072x1 S131072x256 [1] [0] [] [0] [] 1 ![1, 256]
  scatter_S1024x256_S131072x1_S131072x256_1_0_0_1_wf : ScatterDims.WF S1024x256 S131072x1 S131072x256 [1] [0] [0] 1
  scatter_S1024_S131072x1_S131072_n_0_0_1_wf : ScatterDims.WF S1024 S131072x1 S131072 [] [0] [0] 1

variable [Facts₀]

def gather_S1024x256_S131072x1_S131072x256_1_0_n_n_0_1_1256 : GatherDims S1024x256 S131072x1 S131072x256 where
  offsetDims := [1]
  collapsedSliceDims := [0]
  operandBatchingDims := []
  startIndicesBatchingDims := []
  startIndexMap := [0]
  indexVectorDim := 1
  sliceSizes := ![1, 256]
  wf := gather_S1024x256_S131072x1_S131072x256_1_0_n_n_0_1_1256_wf
def scatter_S1024x256_S131072x1_S131072x256_1_0_0_1 : ScatterDims S1024x256 S131072x1 S131072x256 where
  updateWindowDims := [1]
  insertedWindowDims := [0]
  scatterDimsToOperandDims := [0]
  indexVectorDim := 1
  wf := scatter_S1024x256_S131072x1_S131072x256_1_0_0_1_wf
def scatter_S1024_S131072x1_S131072_n_0_0_1 : ScatterDims S1024 S131072x1 S131072 where
  updateWindowDims := []
  insertedWindowDims := [0]
  scatterDimsToOperandDims := [0]
  indexVectorDim := 1
  wf := scatter_S1024_S131072x1_S131072_n_0_0_1_wf

class Facts : Prop extends Facts₀ where

variable [Facts]
-- ==== Proof.KPieces.lean ====
/-
  What each control case of the body leaves behind, as values.

  The body keeps two running totals across grid points: a table of row sums (1024 × 256) and a column of counts
  (1024 × 1). At a first point (case A) it writes zeros into both and then adds the point's contribution; at a middle
  point (case B) it adds the contribution to what the point before left; at a last point (case C) it does the same
  and then copies both totals out, as one block each of the two results. Read through the whole buffers, every one of
  these stores is the body's own arithmetic applied to the buffers' contents.
-/
import proofs.«405211_j61108794688227_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first point leaves the zero table plus the point's row sums … -/
theorem sA0 (c : Dev nD) (i : grid0.Coords) (a2 : Memref sig .tc .vmem S1x2048 .i32) (h2 : a2.IsWhole) (a3 : Memref sig .tc .vmem S2048x256 .f32) (h3 : a3.IsWhole) (a4 : Memref sig .tc .vmem S1x1024x256 .f32) (h4 : a4.IsWhole) (a5 : Memref sig .tc .vmem S1x1024x1 .f32) (h5 : a5.IsWhole) (a6 : Memref sig .tc .vmem S1024x256 .f32) (h6 : a6.IsWhole) (a7 : Memref sig .tc .vmem S1024x1 .f32) (h7 : a7.IsWhole) (hc0 : cond0_0 i) (hc1 : ¬cond0_1 i) (x0 : Vec F S1x2048 .i32) (x1 : Vec F S2048x256 .f32) :
    sout0_A_0 c i a2 h2 a3 h3 a4 h4 a5 h5 a6 h6 a7 h7 hc0 hc1 x0 x1 = k0_pay4 x0 x1 (k0_pay1 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1024x256) hz2]
  simp only [View.readAt_eq_ld, h2.read_unread, h3.read_unread, h6.read_unread, h7.read_unread, View.ld_unit_zero (S := S1x2048) hz2, View.ld_unit_zero (S := S2048x256) hz2, View.ld_unit_zero (S := S1024x256) hz2, View.ld_unit_zero (S := S1024x1) hz2, View.readCov_unit_zero (S := S1024x256) _ hz2, View.readCov_unit_zero (S := S1024x1) _ hz2]

/-- … and the zero column plus the point's counts. -/
theorem sA1 (c : Dev nD) (i : grid0.Coords) (a2 : Memref sig .tc .vmem S1x2048 .i32) (h2 : a2.IsWhole) (a3 : Memref sig .tc .vmem S2048x256 .f32) (h3 : a3.IsWhole) (a4 : Memref sig .tc .vmem S1x1024x256 .f32) (h4 : a4.IsWhole) (a5 : Memref sig .tc .vmem S1x1024x1 .f32) (h5 : a5.IsWhole) (a6 : Memref sig .tc .vmem S1024x256 .f32) (h6 : a6.IsWhole) (a7 : Memref sig .tc .vmem S1024x1 .f32) (h7 : a7.IsWhole) (hc0 : cond0_0 i) (hc1 : ¬cond0_1 i) (x0 : Vec F S1x2048 .i32) (x1 : Vec F S2048x256 .f32) :
    sout0_A_1 c i a2 h2 a3 h3 a4 h4 a5 h5 a6 h6 a7 h7 hc0 hc1 x0 x1 = k0_pay5 x0 (k0_pay2 (F := F)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1024x1) hz2]
  simp only [View.readAt_eq_ld, h2.read_unread, h3.read_unread, h6.read_unread, h7.read_unread, View.ld_unit_zero (S := S1x2048) hz2, View.ld_unit_zero (S := S2048x256) hz2, View.ld_unit_zero (S := S1024x256) hz2, View.ld_unit_zero (S := S1024x1) hz2, View.readCov_unit_zero (S := S1024x256) _ hz2, View.readCov_unit_zero (S := S1024x1) _ hz2]

/-- A middle point adds its row sums to the table the point before left … -/
theorem sB0 (c : Dev nD) (i : grid0.Coords) (a2 : Memref sig .tc .vmem S1x2048 .i32) (h2 : a2.IsWhole) (a3 : Memref sig .tc .vmem S2048x256 .f32) (h3 : a3.IsWhole) (a4 : Memref sig .tc .vmem S1x1024x256 .f32) (h4 : a4.IsWhole) (a5 : Memref sig .tc .vmem S1x1024x1 .f32) (h5 : a5.IsWhole) (a6 : Memref sig .tc .vmem S1024x256 .f32) (h6 : a6.IsWhole) (a7 : Memref sig .tc .vmem S1024x1 .f32) (h7 : a7.IsWhole) (hc0 : ¬cond0_0 i) (hc1 : ¬cond0_1 i) (x0 : Vec F S1x2048 .i32) (x1 : Vec F S2048x256 .f32) (xs0 : Vec F S1024x256 .f32) (xs1 : Vec F S1024x1 .f32) :
    sout0_B_0 c i a2 h2 a3 h3 a4 h4 a5 h5 a6 h6 a7 h7 hc0 hc1 x0 x1 xs0 xs1 = k0_pay4 x0 x1 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread, View.ld_unit_zero (S := S1x2048) hz2, View.ld_unit_zero (S := S2048x256) hz2, View.ld_unit_zero (S := S1024x256) hz2, View.ld_unit_zero (S := S1024x1) hz2, View.readCov_unit_zero (S := S1024x256) _ hz2, View.readCov_unit_zero (S := S1024x1) _ hz2]

/-- … and its counts to the column. -/
theorem sB1 (c : Dev nD) (i : grid0.Coords) (a2 : Memref sig .tc .vmem S1x2048 .i32) (h2 : a2.IsWhole) (a3 : Memref sig .tc .vmem S2048x256 .f32) (h3 : a3.IsWhole) (a4 : Memref sig .tc .vmem S1x1024x256 .f32) (h4 : a4.IsWhole) (a5 : Memref sig .tc .vmem S1x1024x1 .f32) (h5 : a5.IsWhole) (a6 : Memref sig .tc .vmem S1024x256 .f32) (h6 : a6.IsWhole) (a7 : Memref sig .tc .vmem S1024x1 .f32) (h7 : a7.IsWhole) (hc0 : ¬cond0_0 i) (hc1 : ¬cond0_1 i) (x0 : Vec F S1x2048 .i32) (x1 : Vec F S2048x256 .f32) (xs0 : Vec F S1024x256 .f32) (xs1 : Vec F S1024x1 .f32) :
    sout0_B_1 c i a2 h2 a3 h3 a4 h4 a5 h5 a6 h6 a7 h7 hc0 hc1 x0 x1 xs0 xs1 = k0_pay5 x0 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread, View.ld_unit_zero (S := S1x2048) hz2, View.ld_unit_zero (S := S2048x256) hz2, View.ld_unit_zero (S := S1024x256) hz2, View.ld_unit_zero (S := S1024x1) hz2, View.readCov_unit_zero (S := S1024x256) _ hz2, View.readCov_unit_zero (S := S1024x1) _ hz2]

/-- A last point does the same to the table … -/
theorem sC0 (c : Dev nD) (i : grid0.Coords) (a2 : Memref sig .tc .vmem S1x2048 .i32) (h2 : a2.IsWhole) (a3 : Memref sig .tc .vmem S2048x256 .f32) (h3 : a3.IsWhole) (a4 : Memref sig .tc .vmem S1x1024x256 .f32) (h4 : a4.IsWhole) (a5 : Memref sig .tc .vmem S1x1024x1 .f32) (h5 : a5.IsWhole) (a6 : Memref sig .tc .vmem S1024x256 .f32) (h6 : a6.IsWhole) (a7 : Memref sig .tc .vmem S1024x1 .f32) (h7 : a7.IsWhole) (hc0 : ¬cond0_0 i) (hc1 : cond0_1 i) (x0 : Vec F S1x2048 .i32) (x1 : Vec F S2048x256 .f32) (xs0 : Vec F S1024x256 .f32) (xs1 : Vec F S1024x1 .f32) :
    sout0_C_0 c i a2 h2 a3 h3 a4 h4 a5 h5 a6 h6 a7 h7 hc0 hc1 x0 x1 xs0 xs1 = k0_pay4 x0 x1 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread, View.ld_unit_zero (S := S1x2048) hz2, View.ld_unit_zero (S := S2048x256) hz2, View.ld_unit_zero (S := S1024x256) hz2, View.ld_unit_zero (S := S1024x1) hz2, View.readCov_unit_zero (S := S1024x256) _ hz2, View.readCov_unit_zero (S := S1024x1) _ hz2]

/-- … and to the column … -/
theorem sC1 (c : Dev nD) (i : grid0.Coords) (a2 : Memref sig .tc .vmem S1x2048 .i32) (h2 : a2.IsWhole) (a3 : Memref sig .tc .vmem S2048x256 .f32) (h3 : a3.IsWhole) (a4 : Memref sig .tc .vmem S1x1024x256 .f32) (h4 : a4.IsWhole) (a5 : Memref sig .tc .vmem S1x1024x1 .f32) (h5 : a5.IsWhole) (a6 : Memref sig .tc .vmem S1024x256 .f32) (h6 : a6.IsWhole) (a7 : Memref sig .tc .vmem S1024x1 .f32) (h7 : a7.IsWhole) (hc0 : ¬cond0_0 i) (hc1 : cond0_1 i) (x0 : Vec F S1x2048 .i32) (x1 : Vec F S2048x256 .f32) (xs0 : Vec F S1024x256 .f32) (xs1 : Vec F S1024x1 .f32) :
    sout0_C_1 c i a2 h2 a3 h3 a4 h4 a5 h5 a6 h6 a7 h7 hc0 hc1 x0 x1 xs0 xs1 = k0_pay5 x0 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread, View.ld_unit_zero (S := S1x2048) hz2, View.ld_unit_zero (S := S2048x256) hz2, View.ld_unit_zero (S := S1024x256) hz2, View.ld_unit_zero (S := S1024x1) hz2, View.readCov_unit_zero (S := S1024x256) _ hz2, View.readCov_unit_zero (S := S1024x1) _ hz2]

/-- … then copies the finished table out as its block of the first result … -/
theorem oC2 (c : Dev nD) (i : grid0.Coords) (a2 : Memref sig .tc .vmem S1x2048 .i32) (h2 : a2.IsWhole) (a3 : Memref sig .tc .vmem S2048x256 .f32) (h3 : a3.IsWhole) (a4 : Memref sig .tc .vmem S1x1024x256 .f32) (h4 : a4.IsWhole) (a5 : Memref sig .tc .vmem S1x1024x1 .f32) (h5 : a5.IsWhole) (a6 : Memref sig .tc .vmem S1024x256 .f32) (h6 : a6.IsWhole) (a7 : Memref sig .tc .vmem S1024x1 .f32) (h7 : a7.IsWhole) (hc0 : ¬cond0_0 i) (hc1 : cond0_1 i) (x0 : Vec F S1x2048 .i32) (x1 : Vec F S2048x256 .f32) (xs0 : Vec F S1024x256 .f32) (xs1 : Vec F S1024x1 .f32) :
    out0_C_2 c i a2 h2 a3 h3 a4 h4 a5 h5 a6 h6 a7 h7 hc0 hc1 x0 x1 xs0 xs1 = k0_pay6 (k0_pay4 x0 x1 xs0) := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3]
  simp only [View.readAt_eq_ld, h2.read_unread, h3.read_unread, h6.read_unread, h7.read_unread, View.ld_unit_zero (S := S1x2048) hz2, View.ld_unit_zero (S := S2048x256) hz2, View.ld_unit_zero (S := S1024x256) hz2, View.ld_unit_zero (S := S1024x1) hz2, View.readCov_unit_zero (S := S1024x256) _ hz2, View.readCov_unit_zero (S := S1024x1) _ hz2]

/-- … and the finished column as its block of the second. -/
theorem oC3 (c : Dev nD) (i : grid0.Coords) (a2 : Memref sig .tc .vmem S1x2048 .i32) (h2 : a2.IsWhole) (a3 : Memref sig .tc .vmem S2048x256 .f32) (h3 : a3.IsWhole) (a4 : Memref sig .tc .vmem S1x1024x256 .f32) (h4 : a4.IsWhole) (a5 : Memref sig .tc .vmem S1x1024x1 .f32) (h5 : a5.IsWhole) (a6 : Memref sig .tc .vmem S1024x256 .f32) (h6 : a6.IsWhole) (a7 : Memref sig .tc .vmem S1024x1 .f32) (h7 : a7.IsWhole) (hc0 : ¬cond0_0 i) (hc1 : cond0_1 i) (x0 : Vec F S1x2048 .i32) (x1 : Vec F S2048x256 .f32) (xs0 : Vec F S1024x256 .f32) (xs1 : Vec F S1024x1 .f32) :
    out0_C_3 c i a2 h2 a3 h3 a4 h4 a5 h5 a6 h6 a7 h7 hc0 hc1 x0 x1 xs0 xs1 = k0_pay7 (k0_pay5 x0 xs1) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3]
  simp only [View.readAt_eq_ld, h2.read_unread, h3.read_unread, h6.read_unread, h7.read_unread, View.ld_unit_zero (S := S1x2048) hz2, View.ld_unit_zero (S := S2048x256) hz2, View.ld_unit_zero (S := S1024x256) hz2, View.ld_unit_zero (S := S1024x1) hz2, View.readCov_unit_zero (S := S1024x256) _ hz2, View.readCov_unit_zero (S := S1024x1) _ hz2]

end Cert.KernelIdeal.KVal

end
-- ==== Proof.SegSum.lean ====
/-
  Sums of selected rows, as plain arithmetic on the extended reals.

  A one-hot entry is the word comparison "row number = label" read as a number: it is 1 exactly when the
  label, read signed, is the row number, and 0 otherwise (also for a label outside the table). A row sum taken
  block by block — 64 blocks of 2048 rows, accumulated from a reset at every 32nd block — is the sum over all
  131072 rows: addition of extended reals is commutative and associative, and 0 · x = 0, 1 · x = x hold for
  every extended real x, so nothing here needs the entries to be finite.
-/
import Idealize.ShloMosaic.Lib.ValueIdx
import Idealize.ShloMosaic.PureOps.Ideal.Laws

noncomputable section

open scoped BigOperators

namespace Cert.SegSum

open Idealize.ShloMosaic Idealize.ShloMosaic.ValueIdx

/-- The one-hot entry of row `k` at a label word: the comparison's bit, widened, read signed, as a number. -/
def oh (k : ℕ) (l : BitVec 32) : EReal :=
  (((BitVec.setWidth 32 (IntOp.cmpi .eq (BitVec.ofNat 32 k) l)).toInt : ℝ) : EReal)

/-- A row number below 2^31 is the signed reading of its own word. -/
theorem toInt_ofNat_small (k : ℕ) (hk : k < 2 ^ 31) : (BitVec.ofNat 32 k).toInt = (k : ℤ) := by
  rw [BitVec.toInt_eq_toNat_cond, BitVec.toNat_ofNat]
  have h1 : k % 2 ^ 32 = k := Nat.mod_eq_of_lt (by omega)
  rw [h1]
  split <;> omega

/-- The word of row `k` is the label exactly when the label reads `k`. -/
theorem ofNat_eq_iff (k : ℕ) (hk : k < 2 ^ 31) (l : BitVec 32) : BitVec.ofNat 32 k = l ↔ l.toInt = (k : ℤ) := by
  constructor
  · rintro rfl; exact toInt_ofNat_small k hk
  · intro h; exact BitVec.eq_of_toInt_eq (by rw [h, toInt_ofNat_small k hk])

/-- The one-hot entry is 1 where the label reads the row number and 0 elsewhere. -/
theorem oh_eq (k : ℕ) (hk : k < 2 ^ 31) (l : BitVec 32) : oh k l = if l.toInt = (k : ℤ) then 1 else 0 := by
  unfold oh IntOp.cmpi
  by_cases h : BitVec.ofNat 32 k = l
  · rw [if_pos ((ofNat_eq_iff k hk l).mp h)]
    simp [h]
  · rw [if_neg (fun h' => h ((ofNat_eq_iff k hk l).mpr h'))]
    have hb : (BitVec.ofNat 32 k == l) = false := by simpa using h
    simp [hb]

/-- A one-hot entry times a value selects the value. -/
theorem oh_mul (k : ℕ) (hk : k < 2 ^ 31) (l : BitVec 32) (x : EReal) :
    oh k l * x = if l.toInt = (k : ℤ) then x else 0 := by
  rw [oh_eq k hk]
  split
  · exact one_mul x
  · exact zero_mul x

/-- The word 0x3F80 denotes 1 in bf16 … -/
theorem ofBits_one_bf16 : Ideal.ofBits .bf16 0x3F80#16 = 1 := by
  simp [Ideal.ofBits, Ideal.ieee]
  norm_cast
  norm_num
/-- … and 0x3F800000 denotes 1 in f32. -/
theorem ofBits_one_f32 : Ideal.ofBits .f32 0x3F800000#32 = 1 := by
  simp [Ideal.ofBits, Ideal.ieee]
  norm_cast
  norm_num

/-- Block by block is all at once: `B` blocks of `L` consecutive terms. -/
theorem sum_blocks {M : Type*} [AddCommMonoid M] (g : ℕ → M) (B L : ℕ) :
    ∑ t ∈ Finset.range B, ∑ j ∈ Finset.range L, g (L * t + j) = ∑ n ∈ Finset.range (B * L), g n := by
  induction B with
  | zero => simp
  | succ B ih =>
    rw [Finset.sum_range_succ, ih, Nat.succ_mul, Finset.sum_range_add, Nat.mul_comm L B]

/-- The running sum after a reset point is that point's term … -/
theorem chain_reset (T : ℕ → EReal) (n : ℕ) (h0 : n % 32 = 0) :
    T n = ∑ i ∈ Finset.range (n % 32 + 1), T (n - n % 32 + i) := by
  rw [h0]; simp

/-- … and a later point adds its own term to the running sum of the point before. -/
theorem chain_step (T : ℕ → EReal) (n : ℕ) (h0 : ¬(n + 1) % 32 = 0) :
    (∑ i ∈ Finset.range (n % 32 + 1), T (n - n % 32 + i)) + T (n + 1)
      = ∑ i ∈ Finset.range ((n + 1) % 32 + 1), T (n + 1 - (n + 1) % 32 + i) := by
  have h1 : (n + 1) % 32 = n % 32 + 1 := by omega
  have h2 : n + 1 - (n + 1) % 32 = n - n % 32 := by omega
  rw [h2, h1, Finset.sum_range_succ _ (n % 32 + 1)]
  congr 2
  omega

/-- The two halves of the grid together are the whole grid. -/
theorem two_halves (T : ℕ → EReal) :
    (∑ i ∈ Finset.range 32, T (0 + i)) + (∑ i ∈ Finset.range 32, T (32 + i)) = ∑ t ∈ Finset.range 64, T t := by
  rw [show (64 : ℕ) = 32 + 32 from rfl, Finset.sum_range_add]
  simp

end Cert.SegSum

end
-- ==== Proof.KPay.lean ====
/-
  The body's arithmetic at one entry, over the extended reals.

  The body compares a column of row numbers 0 … 1023 with the block's 2048 labels: entry (k, j) of the one-hot matrix is
  1 when label j reads k and 0 otherwise. Its product with the block of 2048 × 256 values adds, into row k, the values
  of exactly the block's rows labelled k; its product with a column of ones counts them. A change of float format is the
  identity on the extended reals, and the products' zero accumulator adds nothing.
-/
import proofs.«405211_j61108794688227_3_alg».proof.Proof.Gen.KernelIdeal.Skeleton
import proofs.«405211_j61108794688227_3_alg».proof.Proof.SegSum
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.KPay

open Cert.KernelIdeal Cert.KernelIdeal.Gen Cert.SegSum

/-- The dimension numbers of the row-sum product: [1024, 2048] × [2048, 256], the 2048 contracted. -/
abbrev DS := dot_S1024x2048_S2048x256_S1024x256_1_0_0_1_n_n
/-- The dimension numbers of the count product: [1024, 2048] × [2048, 1]. -/
abbrev DC := dot_S1024x2048_S2048x1_S1024x1_1_0_0_1_n_n

theorem lhs_DS_0 (i : S1024x256.Idx) (q : DS.contr.Idx) : (DS.lhsIdx i q 0).val = (i 0).val := by
  unfold DotDims.lhsIdx
  rw [dif_neg (show ¬(0 : Fin S1024x2048.rank) ∈ DS.lhsBatch by decide), dif_pos (show (0 : Fin S1024x2048.rank) ∈ DS.lhsNonContracting by decide)]
  rfl
theorem lhs_DS_1 (i : S1024x256.Idx) (q : DS.contr.Idx) : (DS.lhsIdx i q 1).val = (q ⟨0, by decide⟩).val :=
  DS.lhsIdx_val_of_single rfl i q
theorem rhs_DS_0 (i : S1024x256.Idx) (q : DS.contr.Idx) : (DS.rhsIdx i q 0).val = (q ⟨0, by decide⟩).val :=
  DS.rhsIdx_val_of_single rfl i q
theorem rhs_DS_1 (i : S1024x256.Idx) (q : DS.contr.Idx) : (DS.rhsIdx i q 1).val = (i 1).val := by
  unfold DotDims.rhsIdx
  rw [dif_neg (show ¬(1 : Fin S2048x256.rank) ∈ DS.rhsBatch by decide), dif_pos (show (1 : Fin S2048x256.rank) ∈ DS.rhsNonContracting by decide)]
  rfl

theorem lhs_DC_0 (i : S1024x1.Idx) (q : DC.contr.Idx) : (DC.lhsIdx i q 0).val = (i 0).val := by
  unfold DotDims.lhsIdx
  rw [dif_neg (show ¬(0 : Fin S1024x2048.rank) ∈ DC.lhsBatch by decide), dif_pos (show (0 : Fin S1024x2048.rank) ∈ DC.lhsNonContracting by decide)]
  rfl
theorem lhs_DC_1 (i : S1024x1.Idx) (q : DC.contr.Idx) : (DC.lhsIdx i q 1).val = (q ⟨0, by decide⟩).val :=
  DC.lhsIdx_val_of_single rfl i q
theorem rhs_DC_0 (i : S1024x1.Idx) (q : DC.contr.Idx) : (DC.rhsIdx i q 0).val = (q ⟨0, by decide⟩).val :=
  DC.rhsIdx_val_of_single rfl i q
theorem rhs_DC_1 (i : S1024x1.Idx) (q : DC.contr.Idx) : (DC.rhsIdx i q 1).val = (i 1).val := by
  unfold DotDims.rhsIdx
  rw [dif_neg (show ¬(1 : Fin S2048x1.rank) ∈ DC.rhsBatch by decide), dif_pos (show (1 : Fin S2048x1.rank) ∈ DC.rhsNonContracting by decide)]
  rfl

/-- The row-sum product at (k, d): the sum over the block's 2048 rows. -/
theorem mmS_apply (a : FVec Ideal S1024x2048 .bf16) (b : FVec Ideal S2048x256 .bf16) (k : Fin 1024) (d : Fin 256) :
    matmul DS none a b (constant S1024x256 .f32 0x00000000#32) (ix2 k d) = ∑ j : Fin 2048, a (ix2 k j) * b (ix2 j d) := by
  refine (Ideal.matmul_constant_zero_apply DS none a b (ix2 k d)).trans ?_
  rw [← Equiv.sum_comp (contrEquiv1 DS 2048 rfl rfl).symm]
  refine Finset.sum_congr rfl fun j _ => ?_
  have hk := contrEquiv1_symm_val DS 2048 rfl rfl j
  have el : DS.lhsIdx (ix2 k d) ((contrEquiv1 DS 2048 rfl rfl).symm j) = ix2 k j := funext fun a => Fin.ext (by
    match a with
    | ⟨0, _⟩ => exact lhs_DS_0 _ _
    | ⟨1, _⟩ => exact (lhs_DS_1 _ _).trans hk)
  have er : DS.rhsIdx (ix2 k d) ((contrEquiv1 DS 2048 rfl rfl).symm j) = ix2 j d := funext fun a => Fin.ext (by
    match a with
    | ⟨0, _⟩ => exact (rhs_DS_0 _ _).trans hk
    | ⟨1, _⟩ => exact rhs_DS_1 _ _)
  rw [el, er]

/-- The count product at (k, 0). -/
theorem mmC_apply (a : FVec Ideal S1024x2048 .bf16) (b : FVec Ideal S2048x1 .bf16) (k : Fin 1024) :
    matmul DC none a b (constant S1024x1 .f32 0x00000000#32) (ix2 k (0 : Fin 1)) = ∑ j : Fin 2048, a (ix2 k j) * b (ix2 j (0 : Fin 1)) := by
  refine (Ideal.matmul_constant_zero_apply DC none a b (ix2 k (0 : Fin 1))).trans ?_
  rw [← Equiv.sum_comp (contrEquiv1 DC 2048 rfl rfl).symm]
  refine Finset.sum_congr rfl fun j _ => ?_
  have hk := contrEquiv1_symm_val DC 2048 rfl rfl j
  have el : DC.lhsIdx (ix2 k (0 : Fin 1)) ((contrEquiv1 DC 2048 rfl rfl).symm j) = ix2 k j := funext fun a => Fin.ext (by
    match a with
    | ⟨0, _⟩ => exact lhs_DC_0 _ _
    | ⟨1, _⟩ => exact (lhs_DC_1 _ _).trans hk)
  have er : DC.rhsIdx (ix2 k (0 : Fin 1)) ((contrEquiv1 DC 2048 rfl rfl).symm j) = ix2 j (0 : Fin 1) := funext fun a => Fin.ext (by
    match a with
    | ⟨0, _⟩ => exact (rhs_DC_0 _ _).trans hk
    | ⟨1, _⟩ => exact rhs_DC_1 _ _)
  rw [el, er]

/-- Entry (k, j) of the one-hot matrix: row number k against the block's label j. -/
theorem pay3_apply (x0 : Vec Ideal S1x2048 .i32) (k : Fin 1024) (j : Fin 2048) :
    k0_pay3 (F := Ideal) x0 (ix2 k j) = oh k.val (x0 (ix2 (0 : Fin 1) j)) := by
  have e1 : iota .tc S1024x2048 32 [0] iota_S1024x2048_d0_w32 (ix2 k j) = BitVec.ofNat 32 k.val :=
    iota_single_apply .tc S1024x2048 32 0 iota_S1024x2048_d0_w32 (ix2 k j)
  have e2 : broadcastTo S1024x2048 (shapeCast S1x2048 x0 shapeCasts_S1x2048_S1x2048) broadcasts_S1x2048_S1024x2048 (ix2 k j)
      = x0 (ix2 (0 : Fin 1) j) := by
    rw [shapeCast_self]
    exact broadcastTo_apply x0 _ (ix2 k j) (ix2 (0 : Fin 1) j) (fun a => by match a with | ⟨0, _⟩ => rfl | ⟨1, _⟩ => rfl)
  unfold k0_pay3 oh
  show (((BitVec.setWidth 32 (IntOp.cmpi .eq (iota .tc S1024x2048 32 [0] iota_S1024x2048_d0_w32 (ix2 k j))
      (broadcastTo S1024x2048 (shapeCast S1x2048 x0 shapeCasts_S1x2048_S1x2048) broadcasts_S1x2048_S1024x2048 (ix2 k j)))).toInt : ℝ) : EReal) = _
  rw [e1, e2]

/-- The table after a point: what it held, plus the values of the block's rows labelled k. -/
theorem pay4_apply (x0 : Vec Ideal S1x2048 .i32) (x1 : Vec Ideal S2048x256 .f32) (xs : Vec Ideal S1024x256 .f32)
    (k : Fin 1024) (d : Fin 256) :
    k0_pay4 (F := Ideal) x0 x1 xs (ix2 k d)
      = xs (ix2 k d) + ∑ j : Fin 2048, oh k.val (x0 (ix2 (0 : Fin 1) j)) * x1 (ix2 j d) := by
  unfold k0_pay4
  rw [shapeCast_self]
  show xs (ix2 k d) + matmul DS none (k0_pay3 x0) (truncf .bf16 x1 bitsLt_bf16_f32) (constant S1024x256 .f32 0x00000000#32) (ix2 k d) = _
  rw [mmS_apply]
  refine congrArg (xs (ix2 k d) + ·) ?_
  refine Finset.sum_congr rfl fun j _ => ?_
  rw [pay3_apply]
  rfl

/-- The column after a point: what it held, plus the number of the block's rows labelled k. -/
theorem pay5_apply (x0 : Vec Ideal S1x2048 .i32) (xs : Vec Ideal S1024x1 .f32) (k : Fin 1024) :
    k0_pay5 (F := Ideal) x0 xs (ix2 k (0 : Fin 1))
      = xs (ix2 k (0 : Fin 1)) + ∑ j : Fin 2048, oh k.val (x0 (ix2 (0 : Fin 1) j)) * 1 := by
  unfold k0_pay5
  rw [shapeCast_self]
  show xs (ix2 k (0 : Fin 1)) + matmul DC none (k0_pay3 x0) (broadcast S2048x1 (Scalar.ofBits (F := Ideal) .bf16 0x3F80#16)) (constant S1024x1 .f32 0x00000000#32) (ix2 k (0 : Fin 1)) = _
  rw [mmC_apply]
  refine congrArg (xs (ix2 k (0 : Fin 1)) + ·) ?_
  refine Finset.sum_congr rfl fun j _ => ?_
  rw [pay3_apply]
  show _ * Ideal.ofBits .bf16 0x3F80#16 = _
  rw [ofBits_one_bf16]

/-- The zero table and the zero column a first point starts from. -/
theorem pay1_apply (i : S1024x256.Idx) : k0_pay1 (F := Ideal) i = 0 := by
  unfold k0_pay1
  rw [shapeCast_self]
  show Ideal.ofBits .f32 0x00000000#32 = 0
  exact Ideal.ofBits_zero_f32
theorem pay2_apply (i : S1024x1.Idx) : k0_pay2 (F := Ideal) i = 0 := by
  unfold k0_pay2
  rw [shapeCast_self]
  show Ideal.ofBits .f32 0x00000000#32 = 0
  exact Ideal.ofBits_zero_f32

/-- The copies out add a leading axis of extent one: block entry (0, k, d) is table entry (k, d). -/
theorem pay6_apply (v : Vec Ideal S1024x256 .f32) (k : Fin 1024) (d : Fin 256) :
    k0_pay6 (F := Ideal) v (ix3 (0 : Fin 1) k d) = v (ix2 k d) := by
  unfold k0_pay6
  refine (shapeCast_apply v _ (ix3 (0 : Fin 1) k d) (ix2 k d) ?_)
  rw [Shape.rowMajor_val_two, Shape.rowMajor_val_three]
  show k.val * 256 + d.val = ((0 : ℕ) * 1024 + k.val) * 256 + d.val
  omega
theorem pay7_apply (v : Vec Ideal S1024x1 .f32) (k : Fin 1024) :
    k0_pay7 (F := Ideal) v (ix3 (0 : Fin 1) k (0 : Fin 1)) = v (ix2 k (0 : Fin 1)) := by
  unfold k0_pay7
  refine (shapeCast_apply v _ (ix3 (0 : Fin 1) k (0 : Fin 1)) (ix2 k (0 : Fin 1)) ?_)
  rw [Shape.rowMajor_val_two, Shape.rowMajor_val_three]
  show k.val * 1 + 0 = ((0 : ℕ) * 1024 + k.val) * 1 + 0
  omega

end Cert.KernelIdeal.KPay

end
-- ==== Proof.KAccum.lean ====
/-
  The totals the body carries from point to point, in closed form.

  The grid's 64 points are taken in order; point t reads block t of the labels (2048 of them) and of the values
  (2048 rows). A point whose number is a multiple of 32 starts the totals afresh. So after point n the table holds, at
  (k, d), the sum of the contributions of the points since the last such start, n − n mod 32 up to n, where a point's
  contribution is the sum of the values (·, d) of its block's rows labelled k; and the column holds the number of those
  rows. This is an induction on the point, never an enumeration of the grid. A point whose number is 31 mod 32 copies
  the totals out, so the block it writes back holds the sum over its whole half of the grid.
-/
import proofs.«405211_j61108794688227_3_alg».proof.Proof.KPieces
import proofs.«405211_j61108794688227_3_alg».proof.Proof.KPay

noncomputable section

open scoped BigOperators
open Idealize.ShloMosaic Idealize.ShloMosaic.TcCoe Idealize.SL.Sem Idealize.ShloMosaic.ValueIdx
open Idealize.ShloMosaic.Pipeline (Dat)

namespace Cert.KernelIdeal.KAcc

open Cert.KernelIdeal Cert.KernelIdeal.Gen Cert.KernelIdeal.KVal Cert.KernelIdeal.KPay Cert.SegSum

variable (m : (ℓ : Loc nD τ sig) → Buf (Elt Ideal) ℓ)

/-- Point t's block of labels, and of values, at their literal shapes. -/
abbrev lblk (c : Dev nD) (t : Fin cfg0.N) : Vec Ideal S1x2048 .i32 := iblk m c 0 t
abbrev xblk (c : Dev nD) (t : Fin cfg0.N) : Vec Ideal S2048x256 .f32 := iblk m c 1 t

/-! ## The carried totals after one point, by the point's case -/

theorem tabA (c : Dev nD) (t : Fin cfg0.N) (h0 : t.val % 32 = 0) (h1 : ¬t.val % 32 = 31) :
    (outsAt0 m c t.val t.isLt).2.2.1 = k0_pay4 (lblk m c t) (xblk m c t) (k0_pay1 (F := Ideal)) := by
  rw [outsAt0_A m c t h0 h1]
  dsimp only
  exact sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem colA (c : Dev nD) (t : Fin cfg0.N) (h0 : t.val % 32 = 0) (h1 : ¬t.val % 32 = 31) :
    (outsAt0 m c t.val t.isLt).2.2.2 = k0_pay5 (lblk m c t) (k0_pay2 (F := Ideal)) := by
  rw [outsAt0_A m c t h0 h1]
  dsimp only
  exact sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem tabB (c : Dev nD) (t : Fin cfg0.N) (h0 : ¬t.val % 32 = 0) (h1 : ¬t.val % 32 = 31) :
    (outsAt0 m c t.val t.isLt).2.2.1 = k0_pay4 (lblk m c t) (xblk m c t) (outsAt0 m c (t.val - 1) (Nat.lt_of_le_of_lt (Nat.sub_le _ _) t.isLt)).2.2.1 := by
  rw [outsAt0_B m c t h0 h1]
  dsimp only
  exact sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem colB (c : Dev nD) (t : Fin cfg0.N) (h0 : ¬t.val % 32 = 0) (h1 : ¬t.val % 32 = 31) :
    (outsAt0 m c t.val t.isLt).2.2.2 = k0_pay5 (lblk m c t) (outsAt0 m c (t.val - 1) (Nat.lt_of_le_of_lt (Nat.sub_le _ _) t.isLt)).2.2.2 := by
  rw [outsAt0_B m c t h0 h1]
  dsimp only
  exact sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem tabC (c : Dev nD) (t : Fin cfg0.N) (h0 : ¬t.val % 32 = 0) (h1 : t.val % 32 = 31) :
    (outsAt0 m c t.val t.isLt).2.2.1 = k0_pay4 (lblk m c t) (xblk m c t) (outsAt0 m c (t.val - 1) (Nat.lt_of_le_of_lt (Nat.sub_le _ _) t.isLt)).2.2.1 := by
  rw [outsAt0_C m c t h0 h1]
  dsimp only
  exact sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem colC (c : Dev nD) (t : Fin cfg0.N) (h0 : ¬t.val % 32 = 0) (h1 : t.val % 32 = 31) :
    (outsAt0 m c t.val t.isLt).2.2.2 = k0_pay5 (lblk m c t) (outsAt0 m c (t.val - 1) (Nat.lt_of_le_of_lt (Nat.sub_le _ _) t.isLt)).2.2.2 := by
  rw [outsAt0_C m c t h0 h1]
  dsimp only
  exact sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The block of the first result a last point leaves: the finished table under a leading unit axis … -/
theorem outTabC (c : Dev nD) (t : Fin cfg0.N) (h0 : ¬t.val % 32 = 0) (h1 : t.val % 32 = 31) :
    (outsAt0 m c t.val t.isLt).1 = k0_pay6 (k0_pay4 (lblk m c t) (xblk m c t) (outsAt0 m c (t.val - 1) (Nat.lt_of_le_of_lt (Nat.sub_le _ _) t.isLt)).2.2.1) := by
  rw [outsAt0_C m c t h0 h1]
  dsimp only
  exact oC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- … and of the second: the finished column. -/
theorem outColC (c : Dev nD) (t : Fin cfg0.N) (h0 : ¬t.val % 32 = 0) (h1 : t.val % 32 = 31) :
    (outsAt0 m c t.val t.isLt).2.1 = k0_pay7 (k0_pay5 (lblk m c t) (outsAt0 m c (t.val - 1) (Nat.lt_of_le_of_lt (Nat.sub_le _ _) t.isLt)).2.2.2) := by
  rw [outsAt0_C m c t h0 h1]
  dsimp only
  exact oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- A point that is not a first one adds to what the point before left, whichever of the two later cases it is. -/
theorem tabBC (c : Dev nD) (t : Fin cfg0.N) (h0 : ¬t.val % 32 = 0) :
    (outsAt0 m c t.val t.isLt).2.2.1 = k0_pay4 (lblk m c t) (xblk m c t) (outsAt0 m c (t.val - 1) (Nat.lt_of_le_of_lt (Nat.sub_le _ _) t.isLt)).2.2.1 := by
  by_cases h1 : t.val % 32 = 31
  · exact tabC m c t h0 h1
  · exact tabB m c t h0 h1
theorem colBC (c : Dev nD) (t : Fin cfg0.N) (h0 : ¬t.val % 32 = 0) :
    (outsAt0 m c t.val t.isLt).2.2.2 = k0_pay5 (lblk m c t) (outsAt0 m c (t.val - 1) (Nat.lt_of_le_of_lt (Nat.sub_le _ _) t.isLt)).2.2.2 := by
  by_cases h1 : t.val % 32 = 31
  · exact colC m c t h0 h1
  · exact colB m c t h0 h1

/-! ## One point's contribution, and the induction -/

/-- Point t's contribution to entry (k, d) of the table: the values (·, d) of its block's rows labelled k. -/
def contrib (c : Dev nD) (k : Fin 1024) (d : Fin 256) (t : ℕ) : EReal :=
  if h : t < cfg0.N then ∑ j : Fin 2048, oh k.val (lblk m c ⟨t, h⟩ (ix2 (0 : Fin 1) j)) * xblk m c ⟨t, h⟩ (ix2 j d) else 0
/-- Point t's contribution to entry k of the column: the number of its block's rows labelled k. -/
def contribC (c : Dev nD) (k : Fin 1024) (t : ℕ) : EReal :=
  if h : t < cfg0.N then ∑ j : Fin 2048, oh k.val (lblk m c ⟨t, h⟩ (ix2 (0 : Fin 1) j)) * 1 else 0

theorem contrib_lt (c : Dev nD) (k : Fin 1024) (d : Fin 256) (t : Fin cfg0.N) :
    contrib m c k d t.val = ∑ j : Fin 2048, oh k.val (lblk m c t (ix2 (0 : Fin 1) j)) * xblk m c t (ix2 j d) := by
  unfold contrib; rw [dif_pos t.isLt]
theorem contribC_lt (c : Dev nD) (k : Fin 1024) (t : Fin cfg0.N) :
    contribC m c k t.val = ∑ j : Fin 2048, oh k.val (lblk m c t (ix2 (0 : Fin 1) j)) * 1 := by
  unfold contribC; rw [dif_pos t.isLt]

/-- The table after point n. -/
theorem tab_eq (c : Dev nD) (k : Fin 1024) (d : Fin 256) : ∀ (n : ℕ) (h : n < cfg0.N),
    (outsAt0 m c n h).2.2.1 (ix2 k d) = ∑ i ∈ Finset.range (n % 32 + 1), contrib m c k d (n - n % 32 + i)
  | 0, h => by
    refine (congrFun (tabA m c ⟨0, h⟩ rfl (by show ¬(0 % 32 = 31); decide)) (ix2 k d)).trans ?_
    rw [pay4_apply, pay1_apply, zero_add, ← contrib_lt m c k d ⟨0, h⟩]
    exact chain_reset (contrib m c k d) 0 rfl
  | n + 1, h => by
    by_cases h0 : (n + 1) % 32 = 0
    · have h1 : ¬(n + 1) % 32 = 31 := by omega
      refine (congrFun (tabA m c ⟨n + 1, h⟩ h0 h1) (ix2 k d)).trans ?_
      rw [pay4_apply, pay1_apply, zero_add, ← contrib_lt m c k d ⟨n + 1, h⟩]
      exact chain_reset (contrib m c k d) (n + 1) h0
    · refine (congrFun (tabBC m c ⟨n + 1, h⟩ h0) (ix2 k d)).trans ?_
      rw [pay4_apply, ← contrib_lt m c k d ⟨n + 1, h⟩]
      show (outsAt0 m c n _).2.2.1 (ix2 k d) + _ = _
      rw [tab_eq c k d n (Nat.lt_of_succ_lt h)]
      exact chain_step (contrib m c k d) n h0

/-- The column after point n. -/
theorem col_eq (c : Dev nD) (k : Fin 1024) : ∀ (n : ℕ) (h : n < cfg0.N),
    (outsAt0 m c n h).2.2.2 (ix2 k (0 : Fin 1)) = ∑ i ∈ Finset.range (n % 32 + 1), contribC m c k (n - n % 32 + i)
  | 0, h => by
    refine (congrFun (colA m c ⟨0, h⟩ rfl (by show ¬(0 % 32 = 31); decide)) (ix2 k (0 : Fin 1))).trans ?_
    rw [pay5_apply, pay2_apply, zero_add, ← contribC_lt m c k ⟨0, h⟩]
    exact chain_reset (contribC m c k) 0 rfl
  | n + 1, h => by
    by_cases h0 : (n + 1) % 32 = 0
    · have h1 : ¬(n + 1) % 32 = 31 := by omega
      refine (congrFun (colA m c ⟨n + 1, h⟩ h0 h1) (ix2 k (0 : Fin 1))).trans ?_
      rw [pay5_apply, pay2_apply, zero_add, ← contribC_lt m c k ⟨n + 1, h⟩]
      exact chain_reset (contribC m c k) (n + 1) h0
    · refine (congrFun (colBC m c ⟨n + 1, h⟩ h0) (ix2 k (0 : Fin 1))).trans ?_
      rw [pay5_apply, ← contribC_lt m c k ⟨n + 1, h⟩]
      show (outsAt0 m c n _).2.2.2 (ix2 k (0 : Fin 1)) + _ = _
      rw [col_eq c k n (Nat.lt_of_succ_lt h)]
      exact chain_step (contribC m c k) n h0

/-! ## What a last point writes back -/

/-- The block a last point leaves for the first result, at (0, k, d): the sum over its half of the grid. -/
theorem outTab_eq (c : Dev nD) (t : Fin cfg0.N) (h1 : t.val % 32 = 31) (k : Fin 1024) (d : Fin 256) :
    (outsAt0 m c t.val t.isLt).1 (ix3 (0 : Fin 1) k d) = ∑ i ∈ Finset.range 32, contrib m c k d (t.val - 31 + i) := by
  have h0 : ¬t.val % 32 = 0 := by omega
  rw [outTabC m c t h0 h1, pay6_apply, ← tabC m c t h0 h1, tab_eq m c k d t.val t.isLt, h1]

/-- The block a last point leaves for the second result, at (0, k, 0). -/
theorem outCol_eq (c : Dev nD) (t : Fin cfg0.N) (h1 : t.val % 32 = 31) (k : Fin 1024) :
    (outsAt0 m c t.val t.isLt).2.1 (ix3 (0 : Fin 1) k (0 : Fin 1)) = ∑ i ∈ Finset.range 32, contribC m c k (t.val - 31 + i) := by
  have h0 : ¬t.val % 32 = 0 := by omega
  rw [outColC m c t h0 h1, pay7_apply, ← colC m c t h0 h1, col_eq m c k t.val t.isLt, h1]

end Cert.KernelIdeal.KAcc

end
-- ==== Proof.KFinal.lean ====
/-
  The two arrays the region leaves, as whole-array functions.

  The first result has shape [2, 1024, 256]: half h of the grid (points 32 h … 32 h + 31) writes block h of it once, at
  its last point, and the block is that half's finished table. The second result, [2, 1024, 1], likewise holds the two
  halves' finished columns. The two blocks tile each array, so after the run entry (h, k, d) of the first is the sum of
  the contributions of half h's points to (k, d), and entry (h, k, 0) of the second the number of half h's rows
  labelled k.
-/
import proofs.«405211_j61108794688227_3_alg».proof.Proof.KAccum

noncomputable section

open scoped BigOperators
open Idealize.ShloMosaic Idealize.ShloMosaic.TcCoe Idealize.SL.Sem Idealize.ShloMosaic.ValueIdx
open Idealize.ShloMosaic.Pipeline (Dat)

namespace Cert.KernelIdeal.KFin

open Cert.KernelIdeal Cert.KernelIdeal.Gen Cert.KernelIdeal.KAcc Cert.SegSum

variable (m : (ℓ : Loc nD τ sig) → Buf (Elt Ideal) ℓ)

/-- The first result after the run: entry (h, k, d) is half h's total for (k, d). -/
def tabs (c : Dev nD) : S2x1024x256.Idx → EReal :=
  fun i => ∑ s ∈ Finset.range 32, contrib m c (i 1) (i 2) (32 * (i 0).val + s)
/-- The second result after the run: entry (h, k, 0) is half h's count for k. -/
def cols (c : Dev nD) : S2x1024x1.Idx → EReal :=
  fun i => ∑ s ∈ Finset.range 32, contribC m c (i 1) (32 * (i 0).val + s)

/-- The printed index maps of the two results, decided over the grid: block (t / 32, 0, 0). -/
theorem idx_facts2 : ∀ t : Fin cfg0.N, win0_2.index t (0 : Fin 3) = t.val / 32 ∧ win0_2.index t (1 : Fin 3) = 0
    ∧ win0_2.index t (2 : Fin 3) = 0 :=
  (by decide +kernel : ∀ t : Fin grid0.N, _)
theorem idx_facts3 : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-- A block entry of the first result a last point leaves, at any block index. -/
theorem outTab_at (c : Dev nD) (t : Fin cfg0.N) (h1 : t.val % 32 = 31) (y : S1x1024x256.Idx) :
    (outsAt0 m c t.val t.isLt).1 y = ∑ i ∈ Finset.range 32, contrib m c (y 1) (y 2) (t.val - 31 + i) := by
  have h0 : (y 0).val < 1 := (y 0).isLt
  have hy : y = ix3 (0 : Fin 1) (y 1) (y 2) := by
    funext a
    match a with
    | ⟨0, _⟩ => exact Fin.ext (by show (y 0).val = 0; omega)
    | ⟨1, _⟩ => rfl
    | ⟨2, _⟩ => rfl
  exact (congrArg (outsAt0 m c t.val t.isLt).1 hy).trans (outTab_eq m c t h1 (y 1) (y 2))

theorem outCol_at (c : Dev nD) (t : Fin cfg0.N) (h1 : t.val % 32 = 31) (y : S1x1024x1.Idx) :
    (outsAt0 m c t.val t.isLt).2.1 y = ∑ i ∈ Finset.range 32, contribC m c (y 1) (t.val - 31 + i) := by
  have h0 : (y 0).val < 1 := (y 0).isLt
  have h2 : (y 2).val < 1 := (y 2).isLt
  have hy : y = ix3 (0 : Fin 1) (y 1) (0 : Fin 1) := by
    funext a
    match a with
    | ⟨0, _⟩ => exact Fin.ext (by show (y 0).val = 0; omega)
    | ⟨1, _⟩ => rfl
    | ⟨2, _⟩ => exact Fin.ext (by show (y 2).val = 0; omega)
  exact (congrArg (outsAt0 m c t.val t.isLt).2.1 hy).trans (outCol_eq m c t h1 (y 1))

/-- What a last point writes back is its block of `tabs`. -/
theorem flushed2_eq (c : Dev nD) (t : Fin cfg0.N) (hf : (cfg0.win 2).flush t = true) :
    (dats m 0 c).flushed 2 t = ((cfg0.win 2).blk t).view.read (Elt Ideal) (tabs m c) := by
  have h1 : t.val % 32 = 31 := (flush0_2 t).mp hf
  show (cfg0.win 2).cut (grid0.coords t) ((dats m 0 c).after 2 t) = _
  rw [after0_2]
  obtain ⟨e0, e1, e2⟩ := idx_facts2 t
  funext j
  show (outsAt0 m c t.val t.isLt).1 j = tabs m c (((cfg0.win 2).blk t).view.emb j)
  rw [outTab_at m c t h1 j]
  have hN : t.val < 64 := lt_of_lt_of_eq t.isLt (show cfg0.N = 64 from N_0)
  have he : ((cfg0.win 2).blk t).view.emb j = ix3 (⟨t.val / 32, by omega⟩ : Fin 2) (j 1) (j 2) := by
    funext a; apply Fin.ext
    match a with
    | ⟨0, _⟩ => show win0_2.index t (0 : Fin 3) * 1 + 1 * (j 0).val = t.val / 32; have hj : (j 0).val < 1 := (j 0).isLt; omega
    | ⟨1, _⟩ => show win0_2.index t (1 : Fin 3) * 1024 + 1 * (j 1).val = (j 1).val; omega
    | ⟨2, _⟩ => show win0_2.index t (2 : Fin 3) * 256 + 1 * (j 2).val = (j 2).val; omega
  rw [he]
  show _ = ∑ s ∈ Finset.range 32, contrib m c (j 1) (j 2) (32 * (t.val / 32) + s)
  have e : t.val - 31 = 32 * (t.val / 32) := by omega
  rw [e]

theorem flushed3_eq (c : Dev nD) (t : Fin cfg0.N) (hf : (cfg0.win 3).flush t = true) :
    (dats m 0 c).flushed 3 t = ((cfg0.win 3).blk t).view.read (Elt Ideal) (cols m c) := by
  have h1 : t.val % 32 = 31 := (flush0_3 t).mp hf
  show (cfg0.win 3).cut (grid0.coords t) ((dats m 0 c).after 3 t) = _
  rw [after0_3]
  obtain ⟨e0, e1, e2⟩ := idx_facts3 t
  funext j
  show (outsAt0 m c t.val t.isLt).2.1 j = cols m c (((cfg0.win 3).blk t).view.emb j)
  rw [outCol_at m c t h1 j]
  have hN : t.val < 64 := lt_of_lt_of_eq t.isLt (show cfg0.N = 64 from N_0)
  have he : ((cfg0.win 3).blk t).view.emb j = ix3 (⟨t.val / 32, by omega⟩ : Fin 2) (j 1) (j 2) := by
    funext a; apply Fin.ext
    match a with
    | ⟨0, _⟩ => show win0_3.index t (0 : Fin 3) * 1 + 1 * (j 0).val = t.val / 32; have hj : (j 0).val < 1 := (j 0).isLt; omega
    | ⟨1, _⟩ => show win0_3.index t (1 : Fin 3) * 1024 + 1 * (j 1).val = (j 1).val; omega
    | ⟨2, _⟩ => show win0_3.index t (2 : Fin 3) * 1 + 1 * (j 2).val = (j 2).val; omega
  rw [he]
  show _ = ∑ s ∈ Finset.range 32, contribC m c (j 1) (32 * (t.val / 32) + s)
  have e : t.val - 31 = 32 * (t.val / 32) := by omega
  rw [e]

/-- An index of the first result is in point t's block iff each coordinate is in the block's range. -/
theorem mem_blk2 (t : Fin cfg0.N) (i : S2x1024x256.Idx) :
    i ∈ ((cfg0.win 2).blk t).view.set ↔ ∀ a : Fin 3, win0_2.index t a * S1x1024x256.size a ≤ (i a).val ∧ (i a).val < win0_2.index t a * S1x1024x256.size a + S1x1024x256.size a := by
  show i ∈ ((View.whole main_v2_0).slice (win0_2.rect t)).set ↔ _
  rw [View.set_slice_whole, Rect.mem_set_unit]
  exact Iff.rfl
theorem mem_blk3 (t : Fin cfg0.N) (i : S2x1024x1.Idx) :
    i ∈ ((cfg0.win 3).blk t).view.set ↔ ∀ a : Fin 3, win0_3.index t a * S1x1024x1.size a ≤ (i a).val ∧ (i a).val < win0_3.index t a * S1x1024x1.size a + S1x1024x1.size a := by
  show i ∈ ((View.whole main_v2_1).slice (win0_3.rect t)).set ↔ _
  rw [View.set_slice_whole, Rect.mem_set_unit]
  exact Iff.rfl

/-- Entry (h, ·, ·) lies in the block the last point of half h writes back. -/
theorem cover2 (i : S2x1024x256.Idx) :
    ∃ t : Fin cfg0.N, (cfg0.win 2).flush t = true ∧ i ∈ ((cfg0.win 2).blk t).view.set := by
  have hi0 : (i 0).val < 2 := (i 0).isLt
  have hi1 : (i 1).val < 1024 := (i 1).isLt
  have hi2 : (i 2).val < 256 := (i 2).isLt
  have hN : cfg0.N = 64 := N_0
  have hN' : grid0.N = 64 := N_0
  refine ⟨⟨32 * (i 0).val + 31, by omega⟩, (flush0_2 _).mpr (by show (32 * (i 0).val + 31) % 32 = 31; omega), ?_⟩
  rw [mem_blk2]
  obtain ⟨e0, e1, e2⟩ := idx_facts2 ⟨32 * (i 0).val + 31, by omega⟩
  have e0' : win0_2.index ⟨32 * (i 0).val + 31, by omega⟩ (0 : Fin 3) = (32 * (i 0).val + 31) / 32 := e0
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1024 ≤ (i 1).val ∧ (i 1).val < win0_2.index _ (1 : Fin 3) * 1024 + 1024; omega
  | ⟨2, _⟩ => show win0_2.index _ (2 : Fin 3) * 256 ≤ (i 2).val ∧ (i 2).val < win0_2.index _ (2 : Fin 3) * 256 + 256; omega
theorem cover3 (i : S2x1024x1.Idx) :
    ∃ t : Fin cfg0.N, (cfg0.win 3).flush t = true ∧ i ∈ ((cfg0.win 3).blk t).view.set := by
  have hi0 : (i 0).val < 2 := (i 0).isLt
  have hi1 : (i 1).val < 1024 := (i 1).isLt
  have hi2 : (i 2).val < 1 := (i 2).isLt
  have hN : cfg0.N = 64 := N_0
  have hN' : grid0.N = 64 := N_0
  refine ⟨⟨32 * (i 0).val + 31, by omega⟩, (flush0_3 _).mpr (by show (32 * (i 0).val + 31) % 32 = 31; omega), ?_⟩
  rw [mem_blk3]
  obtain ⟨e0, e1, e2⟩ := idx_facts3 ⟨32 * (i 0).val + 31, by omega⟩
  have e0' : win0_3.index ⟨32 * (i 0).val + 31, by omega⟩ (0 : Fin 3) = (32 * (i 0).val + 31) / 32 := e0
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1024 ≤ (i 1).val ∧ (i 1).val < win0_3.index _ (1 : Fin 3) * 1024 + 1024; omega
  | ⟨2, _⟩ => show win0_3.index _ (2 : Fin 3) * 1 ≤ (i 2).val ∧ (i 2).val < win0_3.index _ (2 : Fin 3) * 1 + 1; omega

/-- The two results after the run. -/
theorem final2 (c : Dev nD) : (dats m 0 c).arrAt 2 cfg0.N = tabs m c :=
  (dats m 0 c).arrAt_eq_of_cover 2 (tabs m c) (flushed2_eq m c) cover2
theorem final3 (c : Dev nD) : (dats m 0 c).arrAt 3 cfg0.N = cols m c :=
  (dats m 0 c).arrAt_eq_of_cover 3 (cols m c) (flushed3_eq m c) cover3

end Cert.KernelIdeal.KFin

end
-- ==== Proof.Tail.lean ====
/-
  What both programs do with the row sums and the counts.

  Both programs clip the labels into 0 … 1023, look the table of slots up at the clipped labels (the first result), and
  turn the row sums `seg` (1024 × 256) and the counts `cnt` (1024) of the batch into the new slots and the new counts:
  the row mean seg / max(cnt, 1); the moving average 0.95 · slots + 0.05 · mean; the mean itself where the old count is
  not positive; and, for a row the batch does not touch (cnt = 0), the old slot. The reference takes `seg` and `cnt`
  from two accumulating scatters. The definitions below are the reference's own operations, with `seg` and `cnt` left
  as arguments, so that the kernel's program can be stated over the same terms.
-/
import proofs.«405211_j61108794688227_3_alg».proof.ReferenceIdeal
import proofs.«405211_j61108794688227_3_alg».proof.Proof.Gen.ReferenceIdeal

noncomputable section

open Idealize.ShloMosaic

namespace Cert.ReferenceIdeal.Tail

open Cert.ReferenceIdeal Cert.ReferenceIdeal.Gen

variable {F : FTy → Type} [FloatOps F]

/-- The labels clipped into 0 … 1023. -/
def labels (a3 : IVec S131072 32) : IVec S131072 32 :=
  minsi (broadcastInDim S131072 ![] bcast_S_S131072 (id (constantI S_ 32 1023#32))) (maxsi (broadcastInDim S131072 ![] bcast_S_S131072 (id (constantI S_ 32 0#32))) a3)

/-- The slots looked up at the clipped labels (a negative index wrapped, as the lookup is printed). -/
def retrieved (a1 : FVec F S1024x256 .f32) (a3 : IVec S131072 32) : FVec F S131072x256 .f32 :=
  Host.gather gather_S1024x256_S131072x1_S131072x256_1_0_n_n_0_1_1256 a1 (broadcastInDim S131072x1 ![0] bcast_S131072_S131072x1_0 (select (cmpi .slt (labels a3) (broadcastInDim S131072 ![] bcast_S_S131072 (constantI S_ 32 0#32))) (addi (labels a3) (broadcastInDim S131072 ![] bcast_S_S131072 (constantI S_ 32 1024#32))) (labels a3)))

/-- The new slots from the batch's row sums and counts. -/
def newSlots (seg : FVec F S1024x256 .f32) (cnt : FVec F S1024 .f32) (a1 : FVec F S1024x256 .f32) (a2 : FVec F S1024 .f32) :
    FVec F S1024x256 .f32 :=
  select (broadcastInDim S1024x256 ![0, 1] bcast_S1024x1_S1024x256_0_1 (broadcastInDim S1024x1 ![0] bcast_S1024_S1024x1_0 (cmpf (F := F) .ogt cnt (broadcastInDim S1024 ![] bcast_S_S1024 (constant S_ .f32 0x00000000#32))))) (select (broadcastInDim S1024x256 ![0, 1] bcast_S1024x1_S1024x256_0_1 (broadcastInDim S1024x1 ![0] bcast_S1024_S1024x1_0 (cmpf (F := F) .ole a2 (broadcastInDim S1024 ![] bcast_S_S1024 (constant S_ .f32 0x00000000#32))))) (Host.divf seg (broadcastInDim S1024x256 ![0, 1] bcast_S1024x1_S1024x256_0_1 (broadcastInDim S1024x1 ![0] bcast_S1024_S1024x1_0 (maximumf cnt (broadcastInDim S1024 ![] bcast_S_S1024 (constant S_ .f32 0x3F800000#32)))))) (addf (mulf (broadcastInDim S1024x256 ![] bcast_S_S1024x256 (constant S_ .f32 0x3F733333#32)) a1) (mulf (broadcastInDim S1024x256 ![] bcast_S_S1024x256 (constant S_ .f32 0x3D4CCCCD#32)) (Host.divf seg (broadcastInDim S1024x256 ![0, 1] bcast_S1024x1_S1024x256_0_1 (broadcastInDim S1024x1 ![0] bcast_S1024_S1024x1_0 (maximumf cnt (broadcastInDim S1024 ![] bcast_S_S1024 (constant S_ .f32 0x3F800000#32))))))))) a1

/-- The new counts. -/
def newCounts (cnt : FVec F S1024 .f32) (a2 : FVec F S1024 .f32) : FVec F S1024 .f32 :=
  addf a2 cnt

/-- The reference's row sums: the rows of the values added into the zero table at their clipped labels. -/
def refSeg (a0 : FVec F S131072x256 .f32) (a3 : IVec S131072 32) : FVec F S1024x256 .f32 :=
  Host.scatterAdd scatter_S1024x256_S131072x1_S131072x256_1_0_0_1 (broadcastInDim S1024x256 ![] bcast_S_S1024x256 (constant S_ .f32 0x00000000#32)) (broadcastInDim S131072x1 ![0] bcast_S131072_S131072x1_0 (labels a3)) a0

/-- The reference's counts: ones added into the zero column at the clipped labels. -/
def refCnt (a3 : IVec S131072 32) : FVec F S1024 .f32 :=
  Host.scatterAdd scatter_S1024_S131072x1_S131072_n_0_0_1 (broadcastInDim S1024 ![] bcast_S_S1024 (constant S_ .f32 0x00000000#32)) (broadcastInDim S131072x1 ![0] bcast_S131072_S131072x1_0 (labels a3)) (broadcastInDim S131072 ![] bcast_S_S131072 (constant S_ .f32 0x3F800000#32))

end Cert.ReferenceIdeal.Tail

end
-- ==== Proof.KTail.lean ====
/-
  The kernel program's host side, over the shared vocabulary.

  Before the region the program clips the labels and lays them out as one row of 131072; the region leaves the two
  halves' tables and columns; after it the program adds the two halves (the batch's row sums and counts) and then does
  with them exactly what the reference does with its own. So each of its three results is the shared term, at
  `kseg` and `kcnt` of the region's two arrays.
-/
import proofs.«405211_j61108794688227_3_alg».proof.Proof.Gen.KernelIdeal.Frame
import proofs.«405211_j61108794688227_3_alg».proof.Proof.Tail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.KTail

open Cert.KernelIdeal Cert.KernelIdeal.Gen

variable {F : FTy → Type} [FloatOps F]
variable (m : (ℓ : Loc nD τ sig) → Buf (Elt F) ℓ) (ρ : Dev nD → PrngReg)

/-- The batch's row sums from the region's first result: its two halves added. -/
def kseg (A2 : FVec F S2x1024x256 .f32) : FVec F S1024x256 .f32 :=
  addf (shapeCast S1024x256 (extractStridedSlice S1x1024x256 ![0, 0, 0] A2 slices_S2x1024x256_S1x1024x256_0_0_0) shapeCasts_S1x1024x256_S1024x256)
    (shapeCast S1024x256 (extractStridedSlice S1x1024x256 ![1, 0, 0] A2 slices_S2x1024x256_S1x1024x256_1_0_0) shapeCasts_S1x1024x256_S1024x256)
/-- The batch's counts from the region's second result. -/
def kcnt (A3 : FVec F S2x1024x1 .f32) : FVec F S1024 .f32 :=
  addf (shapeCast S1024 (extractStridedSlice S1x1024x1 ![0, 0, 0] A3 slices_S2x1024x1_S1x1024x1_0_0_0) shapeCasts_S1x1024x1_S1024)
    (shapeCast S1024 (extractStridedSlice S1x1024x1 ![1, 0, 0] A3 slices_S2x1024x1_S1x1024x1_1_0_0) shapeCasts_S1x1024x1_S1024)

-- The core's contents when the region is left: its four arrays as the run leaves them, everything else as the region found it.

theorem wa_v2_0 (c : Dev nD) : Pipeline.withArrays (cfgs 0).spec c (V0 m c) (fun w => (dats m 0 c).arrAt w (cfgs 0).N) (Proc.devRef .tc main_v2_0) = (dats m 0 c).arrAt 2 cfg0.N :=
  Pipeline.withArrays_arr spec0 launch0.win.arr_inj c _ _ 2
theorem wa_v2_1 (c : Dev nD) : Pipeline.withArrays (cfgs 0).spec c (V0 m c) (fun w => (dats m 0 c).arrAt w (cfgs 0).N) (Proc.devRef .tc main_v2_1) = (dats m 0 c).arrAt 3 cfg0.N :=
  Pipeline.withArrays_arr spec0 launch0.win.arr_inj c _ _ 3
theorem wa_arg1 (c : Dev nD) : Pipeline.withArrays (cfgs 0).spec c (V0 m c) (fun w => (dats m 0 c).arrAt w (cfgs 0).N) (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem wa_arg2 (c : Dev nD) : Pipeline.withArrays (cfgs 0).spec c (V0 m c) (fun w => (dats m 0 c).arrAt w (cfgs 0).N) (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

set_option maxHeartbeats 1000000 in
/-- The clipped labels, as the host lines before the region leave them. -/
theorem V_main_v0 (c : Dev nD) :
    V m c main_v0 = Cert.ReferenceIdeal.Tail.labels (m ((c : Thread nD τ).loc main_arg3)) := by
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append, List.nil_append]
  after_results_simp
  rfl

set_option maxHeartbeats 1000000 in
/-- The labels' row: the clipped labels, reshaped [131072] → [1, 131072]. -/
theorem V_main_v1 (c : Dev nD) :
    (V m c main_v1 : S1x131072.Idx → BitVec 32)
      = shapeCast S1x131072 (Cert.ReferenceIdeal.Tail.labels (m ((c : Thread nD τ).loc main_arg3))) shapeCasts_S131072_S1x131072 := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  after_results_simp
  rfl

theorem wa_v0 (c : Dev nD) :
    Pipeline.withArrays (cfgs 0).spec c (V0 m c) (fun w => (dats m 0 c).arrAt w (cfgs 0).N) (Proc.devRef .tc main_v0) = Cert.ReferenceIdeal.Tail.labels (m ((c : Thread nD τ).loc main_arg3)) :=
  (Pipeline.withArrays_of_ne _ c (V0 m c) _ main_v0 (by exact (by decide : ∀ w, Pipeline.arrRef spec0 w ≠ main_v0))).trans (V_main_v0 m c)

set_option maxHeartbeats 4000000 in
set_option maxRecDepth 8192 in
/-- The new counts. -/
theorem tail_v31 (c : Dev nD) :
    Pipeline.afterTail₀ cfgs (dats m) 0 (V0 m) [hostOps1, hostOps1_1, hostOps1_2, hostOps1_3, hostOps1_4] c main_v31
      = Cert.ReferenceIdeal.Tail.newCounts (kcnt ((dats m 0 c).arrAt 3 cfg0.N)) (m ((c : Thread nD τ).loc main_arg2)) := by
  unfold Pipeline.afterTail₀
  simp only [hostOps1, hostOps1_1, hostOps1_2, hostOps1_3, hostOps1_4, List.flatten_cons, List.flatten_nil, List.append_nil, List.cons_append, List.nil_append]
  after_results_simp
  try simp only [TRef.ofBuf, TRef.toBuf, cast_eq]
  rw [wa_v2_1 m c, wa_arg2 m c]
  rfl

set_option maxHeartbeats 4000000 in
set_option maxRecDepth 8192 in
/-- The new slots. -/
theorem tail_v30 (c : Dev nD) :
    Pipeline.afterTail₀ cfgs (dats m) 0 (V0 m) [hostOps1, hostOps1_1, hostOps1_2, hostOps1_3, hostOps1_4] c main_v30
      = Cert.ReferenceIdeal.Tail.newSlots (kseg ((dats m 0 c).arrAt 2 cfg0.N)) (kcnt ((dats m 0 c).arrAt 3 cfg0.N))
          (m ((c : Thread nD τ).loc main_arg1)) (m ((c : Thread nD τ).loc main_arg2)) := by
  unfold Pipeline.afterTail₀
  simp only [hostOps1, hostOps1_1, hostOps1_2, hostOps1_3, hostOps1_4, List.flatten_cons, List.flatten_nil, List.append_nil, List.cons_append, List.nil_append]
  after_results_simp
  try simp only [TRef.ofBuf, TRef.toBuf, cast_eq]
  rw [wa_v2_0 m c, wa_v2_1 m c, wa_arg1 m c, wa_arg2 m c]
  rfl

set_option maxHeartbeats 4000000 in
set_option maxRecDepth 8192 in
/-- The slots looked up at the clipped labels. -/
theorem tail_v38 (c : Dev nD) :
    Pipeline.afterTail₀ cfgs (dats m) 0 (V0 m) [hostOps1, hostOps1_1, hostOps1_2, hostOps1_3, hostOps1_4] c main_v38
      = Cert.ReferenceIdeal.Tail.retrieved (m ((c : Thread nD τ).loc main_arg1)) (m ((c : Thread nD τ).loc main_arg3)) := by
  unfold Pipeline.afterTail₀
  simp only [hostOps1, hostOps1_1, hostOps1_2, hostOps1_3, hostOps1_4, List.flatten_cons, List.flatten_nil, List.append_nil, List.cons_append, List.nil_append]
  after_results_simp
  try simp only [TRef.ofBuf, TRef.toBuf, cast_eq]
  rw [wa_v0 m c, wa_arg1 m c]
  rfl

/-- The kernel program's run, read: its three results over the shared vocabulary, the arguments unchanged. -/
theorem run : θ_run defs (onTc (τ := τ) (main (F := F))) ⟨m, fun _ => 0, ρ⟩ fun r => ∀ c : Dev nD,
      r.2.mem ((c.tc : Thread nD τ).loc main_v38) = Cert.ReferenceIdeal.Tail.retrieved (m ((c : Thread nD τ).loc main_arg1)) (m ((c : Thread nD τ).loc main_arg3))
      ∧ r.2.mem ((c.tc : Thread nD τ).loc main_v30) = Cert.ReferenceIdeal.Tail.newSlots (kseg ((dats m 0 c).arrAt 2 cfg0.N)) (kcnt ((dats m 0 c).arrAt 3 cfg0.N)) (m ((c : Thread nD τ).loc main_arg1)) (m ((c : Thread nD τ).loc main_arg2))
      ∧ r.2.mem ((c.tc : Thread nD τ).loc main_v31) = Cert.ReferenceIdeal.Tail.newCounts (kcnt ((dats m 0 c).arrAt 3 cfg0.N)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v38 (Pipeline.mem_restRefs_of main_v38 (by decide) (by decide))).trans (tail_v38 m c),
      ((h c).2 main_v30 (Pipeline.mem_restRefs_of main_v30 (by decide) (by decide))).trans (tail_v30 m c),
      ((h c).2 main_v31 (Pipeline.mem_restRefs_of main_v31 (by decide) (by decide))).trans (tail_v31 m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KTail

end
-- ==== Proof.LibScatterAddRows.lean ====
import Idealize.ShloMosaic.PureOps.Ideal
import Idealize.ShloMosaic.Lib.ValueIdx
noncomputable section
open scoped BigOperators
namespace Idealize.ShloMosaic.ScatterRows
open Idealize.ShloMosaic Idealize.ShloMosaic.ValueIdx

/-! ## The accumulating float scatter at the ideal instance, read at an index

A scatter of rows into an [N, D] operand (scatter indices [M, 1], updates [M, D]) and of entries into an [N] operand
(scatter indices [M, 1], updates [M]). Update (n, d') lands at start plus window coordinate, which is
((idx (n, 0)) read signed, d'), when that is inside the operand on both axes, and is dropped otherwise. So it lands on
(k, d) exactly when the signed scatter index of row n is k and d' = d: the in-range test holds by itself then, because
k < N and d < D. The element of the result at (k, d) is therefore the operand's plus the sum, over the rows n whose
scatter index is k, of the update's (n, d). A scatter index that is negative or at least N equals no k and
contributes nothing. -/

/-- An update index lands on operand index i exactly when start plus window coordinate is i's coordinate on
    every axis: the in-range test of the landing is then automatic, because i is an index of the operand. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro he a
      have e := congrArg Fin.val (congrFun he a)
      simp only at e
      have := (h a).1
      omega
    · intro he
      funext a
      apply Fin.ext
      simp only
      have := he a
      omega
  · rename_i h
    constructor
    · intro he
      exact absurd he (by simp)
    · intro he
      exfalso
      apply h
      intro a
      have := he a
      have := (i a).isLt
      omega

/-- rows of an [N, D] operand: scatter indices [M, 1], updates [M, D]; update_window_dims [1], inserted_window_dims [0], scatter_dims_to_operand_dims [0], index_vector_dim 1 -/
abbrev rowsDims (N M D : Nat) (wf : ScatterDims.WF ⟨2, ![N, D]⟩ ⟨2, ![M, 1]⟩ ⟨2, ![M, D]⟩ [1] [0] [0] 1) : ScatterDims ⟨2, ![N, D]⟩ ⟨2, ![M, 1]⟩ ⟨2, ![M, D]⟩ where
  updateWindowDims := [1]
  insertedWindowDims := [0]
  scatterDimsToOperandDims := [0]
  indexVectorDim := 1
  wf := wf

section Rows
variable {N M D w : Nat} (wf : ScatterDims.WF ⟨2, ![N, D]⟩ ⟨2, ![M, 1]⟩ ⟨2, ![M, D]⟩ [1] [0] [0] 1)

/-- On the row axis the start is the scatter index of the update's row, read signed. -/
private theorem rows_start_zero (idx : IVec ⟨2, ![M, 1]⟩ w) (n : Fin M) (d' : Fin D) :
    (rowsDims N M D wf).start (ix2 n d') idx (0 : Fin 2) = (idx (ix2 n (0 : Fin 1))).toInt := by
  unfold ScatterDims.start
  have hm : (0 : Fin 2) ∈ (rowsDims N M D wf).scatterDimsToOperandDims := List.mem_singleton.mpr rfl
  rw [dif_pos hm]
  have hsi : (rowsDims N M D wf).siIdx (ix2 n d') ⟨List.idxOf (0 : Fin 2) (rowsDims N M D wf).scatterDimsToOperandDims,
      List.idxOf_lt_length_iff.2 hm⟩ = ix2 n (0 : Fin 1) := by
    funext b; refine Fin.ext ?_
    match b with
    | ⟨0, _⟩ => rfl
    | ⟨1, _⟩ => rfl
  rw [hsi]

/-- On the column axis, which the map does not name, the start is 0. -/
private theorem rows_start_one (idx : IVec ⟨2, ![M, 1]⟩ w) (j : (⟨2, ![M, D]⟩ : Shape).Idx) :
    (rowsDims N M D wf).start j idx (1 : Fin 2) = 0 := by
  unfold ScatterDims.start
  have hm : ¬ (1 : Fin 2) ∈ (rowsDims N M D wf).scatterDimsToOperandDims := by
    intro h; exact absurd (List.mem_singleton.mp h) (show ¬ (1 : Fin 2) = 0 by decide)
  rw [dif_neg hm]

/-- The row axis is inserted: its window coordinate is 0. -/
private theorem rows_window_zero (j : (⟨2, ![M, D]⟩ : Shape).Idx) :
    (rowsDims N M D wf).window j (0 : Fin 2) = 0 := by
  unfold ScatterDims.window
  have hk : (rowsDims N M D wf).sKept = [(1 : Fin 2)] := rfl
  have hm : ¬ (0 : Fin 2) ∈ (rowsDims N M D wf).sKept := by
    rw [hk]; intro h; exact absurd (List.mem_singleton.mp h) (show ¬ (0 : Fin 2) = 1 by decide)
  rw [dif_neg hm]

/-- The column axis is the one kept axis: its window coordinate is the update's column. -/
private theorem rows_window_one (j : (⟨2, ![M, D]⟩ : Shape).Idx) :
    (rowsDims N M D wf).window j (1 : Fin 2) = (j (1 : Fin 2)).val := by
  unfold ScatterDims.window
  have hk : (rowsDims N M D wf).sKept = [(1 : Fin 2)] := rfl
  have hm : (1 : Fin 2) ∈ (rowsDims N M D wf).sKept := by
    rw [hk]; exact List.mem_singleton.mpr rfl
  rw [dif_pos hm]
  rfl

/-- Update (n, d') lands on (k, d) exactly when row n's scatter index is k and d' = d. -/
private theorem resultIdx?_rows_eq_some_iff (idx : IVec ⟨2, ![M, 1]⟩ w) (n : Fin M) (d' : Fin D) (k : Fin N) (d : Fin D) :
    (rowsDims N M D wf).resultIdx? (ix2 n d') idx = some (ix2 k d)
      ↔ (idx (ix2 n (0 : Fin 1))).toInt = (k.val : ℤ) ∧ d' = d := by
  rw [resultIdx?_eq_some_iff]
  constructor
  · intro h
    have h0 := h (0 : Fin 2)
    have h1 := h (1 : Fin 2)
    rw [rows_start_zero, rows_window_zero] at h0
    rw [rows_start_one, rows_window_one] at h1
    refine ⟨?_, Fin.ext ?_⟩
    · simpa using h0
    · have h1' : (0 : ℤ) + ((d'.val : ℕ) : ℤ) = ((d.val : ℕ) : ℤ) := h1
      omega
  · rintro ⟨h0, rfl⟩ a
    match a with
    | ⟨0, _⟩ =>
      show (rowsDims N M D wf).start (ix2 n d') idx (0 : Fin 2)
        + (((rowsDims N M D wf).window (ix2 n d') (0 : Fin 2) : ℕ) : ℤ) = ((k.val : ℕ) : ℤ)
      rw [rows_start_zero, rows_window_zero, h0]
      simp
    | ⟨1, _⟩ =>
      show (rowsDims N M D wf).start (ix2 n d') idx (1 : Fin 2)
        + (((rowsDims N M D wf).window (ix2 n d') (1 : Fin 2) : ℕ) : ℤ) = ((d'.val : ℕ) : ℤ)
      rw [rows_start_one, rows_window_one]
      simp

end Rows

theorem scatterAdd_rows_apply {N M D w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal) (k : Fin N) (d : Fin D) :
    Ideal.hostScatterAdd (rowsDims N M D wf) x idx upd (ix2 k d)
      = x (ix2 k d) + ∑ n : Fin M, if (idx (ix2 n (0 : Fin 1))).toInt = (k.val : ℤ) then upd (ix2 n d) else 0 := by
  unfold Ideal.hostScatterAdd
  congr 1
  rw [Finset.sum_filter, sum_idx2]
  refine Finset.sum_congr rfl fun n _ => ?_
  simp only [resultIdx?_rows_eq_some_iff]
  by_cases hn : (idx (ix2 n (0 : Fin 1))).toInt = (k.val : ℤ)
  · simp only [hn, true_and, if_true]
    rw [Finset.sum_ite_eq' Finset.univ d (fun d' => upd (ix2 n d'))]
    simp
  · simp only [hn, false_and, if_false]
    exact Finset.sum_const_zero

/-- entries of an [N] operand: scatter indices [M, 1], updates [M]; update_window_dims [], inserted_window_dims [0], scatter_dims_to_operand_dims [0], index_vector_dim 1 -/
abbrev vecDims (N M : Nat) (wf : ScatterDims.WF ⟨1, ![N]⟩ ⟨2, ![M, 1]⟩ ⟨1, ![M]⟩ [] [0] [0] 1) : ScatterDims ⟨1, ![N]⟩ ⟨2, ![M, 1]⟩ ⟨1, ![M]⟩ where
  updateWindowDims := []
  insertedWindowDims := [0]
  scatterDimsToOperandDims := [0]
  indexVectorDim := 1
  wf := wf

section Vec
variable {N M w : Nat} (wf : ScatterDims.WF ⟨1, ![N]⟩ ⟨2, ![M, 1]⟩ ⟨1, ![M]⟩ [] [0] [0] 1)

/-- A sum over a rank-1 index set is the sum over its one coordinate. -/
private theorem sum_ix1 {A : Type*} [AddCommMonoid A] {n : Nat} (f : (⟨1, ![n]⟩ : Shape).Idx → A) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- On the one axis the start is the scatter index of the update's entry, read signed. -/
private theorem vec_start_zero (idx : IVec ⟨2, ![M, 1]⟩ w) (n : Fin M) :
    (vecDims N M wf).start (ix1 n) idx (0 : Fin 1) = (idx (ix2 n (0 : Fin 1))).toInt := by
  unfold ScatterDims.start
  have hm : (0 : Fin 1) ∈ (vecDims N M wf).scatterDimsToOperandDims := List.mem_singleton.mpr rfl
  rw [dif_pos hm]
  have hsi : (vecDims N M wf).siIdx (ix1 n) ⟨List.idxOf (0 : Fin 1) (vecDims N M wf).scatterDimsToOperandDims,
      List.idxOf_lt_length_iff.2 hm⟩ = ix2 n (0 : Fin 1) := by
    funext b; refine Fin.ext ?_
    match b with
    | ⟨0, _⟩ => rfl
    | ⟨1, _⟩ => rfl
  rw [hsi]

/-- The one axis is inserted: its window coordinate is 0. -/
private theorem vec_window_zero (j : (⟨1, ![M]⟩ : Shape).Idx) :
    (vecDims N M wf).window j (0 : Fin 1) = 0 := by
  unfold ScatterDims.window
  have hk : (vecDims N M wf).sKept = [] := rfl
  have hm : ¬ (0 : Fin 1) ∈ (vecDims N M wf).sKept := by
    rw [hk]; exact List.not_mem_nil
  rw [dif_neg hm]

/-- Update n lands on k exactly when its scatter index is k. -/
private theorem resultIdx?_vec_eq_some_iff (idx : IVec ⟨2, ![M, 1]⟩ w) (n : Fin M) (k : Fin N) :
    (vecDims N M wf).resultIdx? (ix1 n) idx = some (ix1 k) ↔ (idx (ix2 n (0 : Fin 1))).toInt = (k.val : ℤ) := by
  rw [resultIdx?_eq_some_iff]
  constructor
  · intro h
    have h0 := h (0 : Fin 1)
    rw [vec_start_zero, vec_window_zero] at h0
    simpa using h0
  · intro h0 a
    match a with
    | ⟨0, _⟩ =>
      show (vecDims N M wf).start (ix1 n) idx (0 : Fin 1)
        + (((vecDims N M wf).window (ix1 n) (0 : Fin 1) : ℕ) : ℤ) = ((k.val : ℕ) : ℤ)
      rw [vec_start_zero, vec_window_zero, h0]
      simp

end Vec

theorem scatterAdd_vec_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (k : Fin N) :
    Ideal.hostScatterAdd (vecDims N M wf) x idx upd (ix1 k)
      = x (ix1 k) + ∑ n : Fin M, if (idx (ix2 n (0 : Fin 1))).toInt = (k.val : ℤ) then upd (ix1 n) else 0 := by
  unfold Ideal.hostScatterAdd
  congr 1
  rw [Finset.sum_filter, sum_ix1]
  refine Finset.sum_congr rfl fun n _ => ?_
  simp only [resultIdx?_vec_eq_some_iff]

end Idealize.ShloMosaic.ScatterRows

end
-- ==== Proof.Bridge.lean ====
/-
  The two programs' row sums are the same numbers, and so are their counts.

  The kernel program's row sum at (k, d) is the sum, over the 64 points and the 2048 rows of each point's block, of
  the one-hot entry (row k against that row's clipped label) times the value; point t's block is rows 2048 t …
  2048 t + 2047 of the arrays, so this is the sum over all 131072 rows n of [label n reads k] · value (n, d). The
  reference's accumulating scatter adds, into the zero table at (k, d), the value (n, d) of every row n whose clipped
  label reads k: the same sum. The counts are the same with every value replaced by 1.
-/
import proofs.«405211_j61108794688227_3_alg».proof.Proof.KFinal
import proofs.«405211_j61108794688227_3_alg».proof.Proof.KTail
import proofs.«405211_j61108794688227_3_alg».proof.Proof.LibScatterAddRows

noncomputable section

open scoped BigOperators
open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.KernelIdeal.KAcc Cert.KernelIdeal.KFin Cert.KernelIdeal.KTail Cert.SegSum
open Idealize.ShloMosaic.ScatterRows

variable (m : (ℓ : Loc nD τ sig) → Buf (Elt Ideal) ℓ)

/-- The clipped labels and the values, as arrays. -/
abbrev lab (c : Dev nD) : IVec S131072 32 := Cert.ReferenceIdeal.Tail.labels (m ((c : Thread nD τ).loc main_arg3))
abbrev sts (c : Dev nD) : FVec Ideal S131072x256 .f32 := m ((c : Thread nD τ).loc main_arg0)

/-- The printed index maps of the two inputs, decided over the grid: the labels' block (0, t), the values' (t, 0). -/
theorem idx_facts0 : ∀ t : Fin cfg0.N, win0_0.index t (0 : Fin 2) = 0 ∧ win0_0.index t (1 : Fin 2) = t.val :=
  (by decide +kernel : ∀ t : Fin grid0.N, _)
theorem idx_facts1 : ∀ t : Fin cfg0.N, win0_1.index t (0 : Fin 2) = t.val ∧ win0_1.index t (1 : Fin 2) = 0 :=
  (by decide +kernel : ∀ t : Fin grid0.N, _)

/-- Label j of point t's block is label 2048 t + j. -/
theorem lblk_apply (c : Dev nD) (t : Fin cfg0.N) (j : Fin 2048) (hn : 2048 * t.val + j.val < 131072) :
    lblk m c t (ix2 (0 : Fin 1) j) = lab m c (ix1 ⟨2048 * t.val + j.val, hn⟩) := by
  obtain ⟨e0, e1⟩ := idx_facts0 t
  unfold lblk iblk
  rw [View.read_apply]
  show (V m c main_v1 : S1x131072.Idx → BitVec 32) (((cfg0.win 0).blk t).view.emb (ix2 (0 : Fin 1) j)) = _
  rw [V_main_v1 m c]
  refine shapeCast_apply _ _ _ (ix1 ⟨2048 * t.val + j.val, hn⟩) ?_
  rw [Shape.rowMajor_val_one, Shape.rowMajor_val_two]
  show 2048 * t.val + j.val = (win0_0.index t (0 : Fin 2) * 1 + 1 * 0) * 131072 + (win0_0.index t (1 : Fin 2) * 2048 + 1 * j.val)
  omega

/-- Row j of point t's block of values is row 2048 t + j. -/
theorem xblk_apply (c : Dev nD) (t : Fin cfg0.N) (j : Fin 2048) (d : Fin 256) (hn : 2048 * t.val + j.val < 131072) :
    xblk m c t (ix2 j d) = sts m c (ix2 ⟨2048 * t.val + j.val, hn⟩ d) := by
  obtain ⟨e0, e1⟩ := idx_facts1 t
  unfold xblk iblk
  rw [View.read_apply]
  show V m c main_arg0 (((cfg0.win 1).blk t).view.emb (ix2 j d)) = _
  rw [V_main_arg0 m c]
  refine congrArg (m ((c : Thread nD τ).loc main_arg0)) ?_
  funext a
  apply Fin.ext
  match a with
  | ⟨0, _⟩ => show win0_1.index t (0 : Fin 2) * 2048 + 1 * j.val = 2048 * t.val + j.val; omega
  | ⟨1, _⟩ => show win0_1.index t (1 : Fin 2) * 256 + 1 * d.val = d.val; omega

/-- Row n's term of the row sum at (k, d), and of the count at k; zero past the last row. -/
def term (c : Dev nD) (k : Fin 1024) (d : Fin 256) (n : ℕ) : EReal :=
  if h : n < 131072 then oh k.val (lab m c (ix1 ⟨n, h⟩)) * sts m c (ix2 ⟨n, h⟩ d) else 0
def termC (c : Dev nD) (k : Fin 1024) (n : ℕ) : EReal :=
  if h : n < 131072 then oh k.val (lab m c (ix1 ⟨n, h⟩)) * 1 else 0

/-- A point's contribution is the sum of its block's rows' terms. -/
theorem contrib_eq (c : Dev nD) (k : Fin 1024) (d : Fin 256) (t : ℕ) (ht : t < 64) :
    contrib m c k d t = ∑ j ∈ Finset.range 2048, term m c k d (2048 * t + j) := by
  have h : t < cfg0.N := lt_of_lt_of_eq ht (show cfg0.N = 64 from N_0).symm
  refine (contrib_lt m c k d ⟨t, h⟩).trans ?_
  rw [Finset.sum_range]
  refine Finset.sum_congr rfl fun j _ => ?_
  have hn : 2048 * t + j.val < 131072 := by have := j.isLt; omega
  unfold term
  rw [dif_pos hn, lblk_apply m c ⟨t, h⟩ j hn, xblk_apply m c ⟨t, h⟩ j d hn]
theorem contribC_eq (c : Dev nD) (k : Fin 1024) (t : ℕ) (ht : t < 64) :
    contribC m c k t = ∑ j ∈ Finset.range 2048, termC m c k (2048 * t + j) := by
  have h : t < cfg0.N := lt_of_lt_of_eq ht (show cfg0.N = 64 from N_0).symm
  refine (contribC_lt m c k ⟨t, h⟩).trans ?_
  rw [Finset.sum_range]
  refine Finset.sum_congr rfl fun j _ => ?_
  have hn : 2048 * t + j.val < 131072 := by have := j.isLt; omega
  unfold termC
  rw [dif_pos hn, lblk_apply m c ⟨t, h⟩ j hn]

/-- The two halves of the region's results, added, at an entry. -/
theorem kseg_apply (A2 : FVec Ideal S2x1024x256 .f32) (k : Fin 1024) (d : Fin 256) :
    kseg A2 (ix2 k d) = A2 (ix3 (0 : Fin 2) k d) + A2 (ix3 (1 : Fin 2) k d) := by
  have e0 : shapeCast S1024x256 (extractStridedSlice S1x1024x256 ![0, 0, 0] A2 slices_S2x1024x256_S1x1024x256_0_0_0) shapeCasts_S1x1024x256_S1024x256 (ix2 k d)
      = A2 (ix3 (0 : Fin 2) k d) := by
    refine (shapeCast_apply _ _ (ix2 k d) (ix3 (0 : Fin 1) k d) ?_).trans
      (extractStridedSlice_apply _ _ _ (ix3 (0 : Fin 1) k d) (ix3 (0 : Fin 2) k d) ?_)
    · rw [Shape.rowMajor_val_three, Shape.rowMajor_val_two]
      show ((0 : ℕ) * 1024 + k.val) * 256 + d.val = k.val * 256 + d.val
      omega
    · intro a
      match a with
      | ⟨0, _⟩ => rfl
      | ⟨1, _⟩ => show k.val = 0 + k.val; omega
      | ⟨2, _⟩ => show d.val = 0 + d.val; omega
  have e1 : shapeCast S1024x256 (extractStridedSlice S1x1024x256 ![1, 0, 0] A2 slices_S2x1024x256_S1x1024x256_1_0_0) shapeCasts_S1x1024x256_S1024x256 (ix2 k d)
      = A2 (ix3 (1 : Fin 2) k d) := by
    refine (shapeCast_apply _ _ (ix2 k d) (ix3 (0 : Fin 1) k d) ?_).trans
      (extractStridedSlice_apply _ _ _ (ix3 (0 : Fin 1) k d) (ix3 (1 : Fin 2) k d) ?_)
    · rw [Shape.rowMajor_val_three, Shape.rowMajor_val_two]
      show ((0 : ℕ) * 1024 + k.val) * 256 + d.val = k.val * 256 + d.val
      omega
    · intro a
      match a with
      | ⟨0, _⟩ => rfl
      | ⟨1, _⟩ => show k.val = 0 + k.val; omega
      | ⟨2, _⟩ => show d.val = 0 + d.val; omega
  unfold kseg
  rw [addf_apply, e0, e1]

theorem kcnt_apply (A3 : FVec Ideal S2x1024x1 .f32) (k : Fin 1024) :
    kcnt A3 (ix1 k) = A3 (ix3 (0 : Fin 2) k (0 : Fin 1)) + A3 (ix3 (1 : Fin 2) k (0 : Fin 1)) := by
  have e0 : shapeCast S1024 (extractStridedSlice S1x1024x1 ![0, 0, 0] A3 slices_S2x1024x1_S1x1024x1_0_0_0) shapeCasts_S1x1024x1_S1024 (ix1 k)
      = A3 (ix3 (0 : Fin 2) k (0 : Fin 1)) := by
    refine (shapeCast_apply _ _ (ix1 k) (ix3 (0 : Fin 1) k (0 : Fin 1)) ?_).trans
      (extractStridedSlice_apply _ _ _ (ix3 (0 : Fin 1) k (0 : Fin 1)) (ix3 (0 : Fin 2) k (0 : Fin 1)) ?_)
    · rw [Shape.rowMajor_val_three, Shape.rowMajor_val_one]
      show ((0 : ℕ) * 1024 + k.val) * 1 + 0 = k.val
      omega
    · intro a
      match a with
      | ⟨0, _⟩ => rfl
      | ⟨1, _⟩ => show k.val = 0 + k.val; omega
      | ⟨2, _⟩ => rfl
  have e1 : shapeCast S1024 (extractStridedSlice S1x1024x1 ![1, 0, 0] A3 slices_S2x1024x1_S1x1024x1_1_0_0) shapeCasts_S1x1024x1_S1024 (ix1 k)
      = A3 (ix3 (1 : Fin 2) k (0 : Fin 1)) := by
    refine (shapeCast_apply _ _ (ix1 k) (ix3 (0 : Fin 1) k (0 : Fin 1)) ?_).trans
      (extractStridedSlice_apply _ _ _ (ix3 (0 : Fin 1) k (0 : Fin 1)) (ix3 (1 : Fin 2) k (0 : Fin 1)) ?_)
    · rw [Shape.rowMajor_val_three, Shape.rowMajor_val_one]
      show ((0 : ℕ) * 1024 + k.val) * 1 + 0 = k.val
      omega
    · intro a
      match a with
      | ⟨0, _⟩ => rfl
      | ⟨1, _⟩ => show k.val = 0 + k.val; omega
      | ⟨2, _⟩ => rfl
  unfold kcnt
  rw [addf_apply, e0, e1]

/-- The kernel program's row sum at (k, d): the sum of all rows' terms. -/
theorem kseg_tabs (c : Dev nD) (k : Fin 1024) (d : Fin 256) :
    kseg (F := Ideal) (tabs m c) (ix2 k d) = ∑ n : Fin 131072, oh k.val (lab m c (ix1 n)) * sts m c (ix2 n d) := by
  rw [kseg_apply]
  show (∑ s ∈ Finset.range 32, contrib m c k d (32 * 0 + s)) + (∑ s ∈ Finset.range 32, contrib m c k d (32 * 1 + s)) = _
  rw [show (32 * 0 : ℕ) = 0 from rfl, show (32 * 1 : ℕ) = 32 from rfl, two_halves (contrib m c k d),
    Finset.sum_congr rfl (fun t ht => contrib_eq m c k d t (Finset.mem_range.mp ht)), sum_blocks (term m c k d) 64 2048]
  show ∑ n ∈ Finset.range 131072, term m c k d n = _
  rw [Finset.sum_range]
  refine Finset.sum_congr rfl fun n _ => ?_
  unfold term
  rw [dif_pos n.isLt]

theorem kcnt_cols (c : Dev nD) (k : Fin 1024) :
    kcnt (F := Ideal) (cols m c) (ix1 k) = ∑ n : Fin 131072, oh k.val (lab m c (ix1 n)) * 1 := by
  rw [kcnt_apply]
  show (∑ s ∈ Finset.range 32, contribC m c k (32 * 0 + s)) + (∑ s ∈ Finset.range 32, contribC m c k (32 * 1 + s)) = _
  rw [show (32 * 0 : ℕ) = 0 from rfl, show (32 * 1 : ℕ) = 32 from rfl, two_halves (contribC m c k),
    Finset.sum_congr rfl (fun t ht => contribC_eq m c k t (Finset.mem_range.mp ht)), sum_blocks (termC m c k) 64 2048]
  show ∑ n ∈ Finset.range 131072, termC m c k n = _
  rw [Finset.sum_range]
  refine Finset.sum_congr rfl fun n _ => ?_
  unfold termC
  rw [dif_pos n.isLt]

/-- The scatter's start index of row n is row n's clipped label. -/
theorem idx_apply (l : IVec Cert.ReferenceIdeal.S131072 32) (n : Fin 131072) :
    broadcastInDim Cert.ReferenceIdeal.S131072x1 ![0] Cert.ReferenceIdeal.Gen.bcast_S131072_S131072x1_0 l (ix2 n (0 : Fin 1)) = l (ix1 n) :=
  broadcastInDim_apply _ _ l (ix2 n (0 : Fin 1)) (ix1 n) (fun a => by match a with | ⟨0, _⟩ => rfl)

/-- The reference's row sum at (k, d): the values (n, d) of the rows n whose clipped label reads k. -/
theorem refSeg_apply (a0 : FVec Ideal Cert.ReferenceIdeal.S131072x256 .f32) (a3 : IVec Cert.ReferenceIdeal.S131072 32)
    (k : Fin 1024) (d : Fin 256) :
    Cert.ReferenceIdeal.Tail.refSeg a0 a3 (ix2 k d)
      = ∑ n : Fin 131072, if (Cert.ReferenceIdeal.Tail.labels a3 (ix1 n)).toInt = (k.val : ℤ) then a0 (ix2 n d) else 0 := by
  unfold Cert.ReferenceIdeal.Tail.refSeg Host.scatterAdd
  rw [Ideal.hostScatterAdd_def]
  refine (scatterAdd_rows_apply (N := 1024) (M := 131072) (D := 256)
    Cert.ReferenceIdeal.Gen.scatter_S1024x256_S131072x1_S131072x256_1_0_0_1_wf _ _ _ k d).trans ?_
  rw [show broadcastInDim Cert.ReferenceIdeal.S1024x256 ![] Cert.ReferenceIdeal.Gen.bcast_S_S1024x256
      (constant (F := Ideal) Cert.ReferenceIdeal.S_ .f32 0x00000000#32) (ix2 k d) = 0 from Ideal.ofBits_zero_f32, zero_add]
  refine Finset.sum_congr rfl fun n _ => ?_
  rw [idx_apply]

/-- The reference's count at k: the number of rows whose clipped label reads k. -/
theorem refCnt_apply (a3 : IVec Cert.ReferenceIdeal.S131072 32) (k : Fin 1024) :
    Cert.ReferenceIdeal.Tail.refCnt (F := Ideal) a3 (ix1 k)
      = ∑ n : Fin 131072, if (Cert.ReferenceIdeal.Tail.labels a3 (ix1 n)).toInt = (k.val : ℤ) then (1 : EReal) else 0 := by
  unfold Cert.ReferenceIdeal.Tail.refCnt Host.scatterAdd
  rw [Ideal.hostScatterAdd_def]
  refine (scatterAdd_vec_apply (N := 1024) (M := 131072)
    Cert.ReferenceIdeal.Gen.scatter_S1024_S131072x1_S131072_n_0_0_1_wf _ _ _ k).trans ?_
  rw [show broadcastInDim Cert.ReferenceIdeal.S1024 ![] Cert.ReferenceIdeal.Gen.bcast_S_S1024
      (constant (F := Ideal) Cert.ReferenceIdeal.S_ .f32 0x00000000#32) (ix1 k) = 0 from Ideal.ofBits_zero_f32, zero_add]
  refine Finset.sum_congr rfl fun n _ => ?_
  rw [idx_apply]
  rw [show broadcastInDim Cert.ReferenceIdeal.S131072 ![] Cert.ReferenceIdeal.Gen.bcast_S_S131072
      (constant (F := Ideal) Cert.ReferenceIdeal.S_ .f32 0x3F800000#32) (ix1 n) = 1 from ofBits_one_f32]

/-- THE ROW SUMS AGREE. -/
theorem seg_eq (c : Dev nD) :
    kseg (F := Ideal) (tabs m c) = Cert.ReferenceIdeal.Tail.refSeg (sts m c) (m ((c : Thread nD τ).loc main_arg3)) := by
  funext i
  obtain ⟨k, d, rfl⟩ : ∃ (k : Fin 1024) (d : Fin 256), i = ix2 k d := ⟨i 0, i 1, eq_ix2 i⟩
  rw [kseg_tabs, refSeg_apply]
  refine Finset.sum_congr rfl fun n _ => ?_
  exact oh_mul k.val (by have := k.isLt; omega) _ _

/-- THE COUNTS AGREE. -/
theorem cnt_eq (c : Dev nD) :
    kcnt (F := Ideal) (cols m c) = Cert.ReferenceIdeal.Tail.refCnt (F := Ideal) (m ((c : Thread nD τ).loc main_arg3)) := by
  funext i
  obtain ⟨k, rfl⟩ : ∃ (k : Fin 1024), i = ix1 k := ⟨i 0, eq_ix1 i⟩
  rw [kcnt_cols, refCnt_apply]
  refine Finset.sum_congr rfl fun n _ => ?_
  exact oh_mul k.val (by have := k.isLt; omega) _ _

end Cert.KernelIdeal.Bridge

end
-- ==== Proof.RefSide.lean ====
/-
  The reference's run, restated over the shared vocabulary: its three results are the lookup, the new slots and the
  new counts of its own row sums and counts.
-/
import proofs.«405211_j61108794688227_3_alg».proof.Defs
import proofs.«405211_j61108794688227_3_alg».proof.Proof.RefRunP
import proofs.«405211_j61108794688227_3_alg».proof.Proof.Tail

noncomputable section

open Idealize.ShloMosaic Idealize.ShloMosaic.TcCoe Idealize.SL.Sem

namespace Cert.ReferenceIdeal.RefSide

open Cert.ReferenceIdeal Cert.ReferenceIdeal.Gen Cert.ReferenceIdeal.Tail

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = retrieved (m ((c.tc : Thread nD τ).loc main_arg1)) (m ((c.tc : Thread nD τ).loc main_arg3))
      ∧ r.2.mem ((c.tc : Thread nD τ).loc main_v32) = newSlots (refSeg (m ((c.tc : Thread nD τ).loc main_arg0)) (m ((c.tc : Thread nD τ).loc main_arg3))) (refCnt (F := F) (m ((c.tc : Thread nD τ).loc main_arg3))) (m ((c.tc : Thread nD τ).loc main_arg1)) (m ((c.tc : Thread nD τ).loc main_arg2))
      ∧ r.2.mem ((c.tc : Thread nD τ).loc main_v33) = newCounts (refCnt (F := F) (m ((c.tc : Thread nD τ).loc main_arg3))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.ValueP.run m ρ

end Cert.ReferenceIdeal.RefSide

end
-- ==== Proof.lean ====
/-
  A table of 1024 slots is updated from a batch of 131072 labelled rows: each slot's new value comes from the sum and
  the number of the batch's rows carrying its (clipped) label, and every row looks its slot up. The reference takes the
  sums and the numbers by an accumulating scatter. The kernel multiplies, block by block of 2048 rows, a one-hot matrix
  (row number against label) with the block's values and with a column of ones, keeps running totals over the 32
  blocks of each half of the batch, and adds the two halves on the host.

  Over the extended reals the two are equal entry by entry. A one-hot entry is exactly 0 or 1, and 0 · x = 0, 1 · x = x
  for every extended real, so the product row is the sum of the selected values; a change of float format is the
  identity; sums of extended reals may be regrouped freely; and a label outside the table selects no row on either
  side. Nothing in the argument needs the inputs to be finite. After the sums and the numbers the two programs apply
  the same operations with the same constants, so their three results agree.

  The three frame claims are the generated runs; nothing was rewritten by the idealization.
-/
import proofs.«405211_j61108794688227_3_alg».proof.Defs
import proofs.«405211_j61108794688227_3_alg».proof.Proof.Gen.Kernel
import proofs.«405211_j61108794688227_3_alg».proof.Proof.Gen.Kernel.Frame
import proofs.«405211_j61108794688227_3_alg».proof.Proof.Gen.KernelIdeal
import proofs.«405211_j61108794688227_3_alg».proof.Proof.Gen.KernelIdeal.Frame
import proofs.«405211_j61108794688227_3_alg».proof.Proof.Gen.ReferenceIdeal
import proofs.«405211_j61108794688227_3_alg».proof.Proof.Gen.Pre_finite_inputs
import proofs.«405211_j61108794688227_3_alg».proof.Proof.Bridge
import proofs.«405211_j61108794688227_3_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.RefSide.run (F := Ideal) m ρ)

theorem preserves : Cert.preserves_Kernel_KernelIdeal := trivial

/-- Both programs end with the lookup, the new slots and the new counts of the same row sums and counts. -/
theorem algebraic : Cert.algebraic_KernelIdeal_ReferenceIdeal := by
  intro m ρ m' ρ' _ hagree
  refine ⟨_, _, _, Cert.KernelIdeal.KTail.run (F := Ideal) m ρ, ?_⟩
  refine (θ_run Cert.ReferenceIdeal.defs _ _).mono (fun _ h c => ?_) (Cert.ReferenceIdeal.RefSide.run (F := Ideal) m' ρ')
  obtain ⟨h7, h32, h33, ha0, ha1, ha2, ha3⟩ := h c
  obtain ⟨e0, e1, e2, e3⟩ := hagree c
  refine ⟨h7.trans ?_, h32.trans ?_, h33.trans ?_, ha0, ha1, ha2, ha3⟩
  · rw [e1, e3]
  · rw [e0, e1, e2, e3, Cert.KernelIdeal.KFin.final2 m c, Cert.KernelIdeal.KFin.final3 m c,
      Cert.KernelIdeal.Bridge.seg_eq m c, Cert.KernelIdeal.Bridge.cnt_eq m c]
  · rw [e2, e3, Cert.KernelIdeal.KFin.final3 m c, Cert.KernelIdeal.Bridge.cnt_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
